-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10x64 .f32) (main_arg6 : FVec F S10 .f32) (main_arg7 : FVec F S10x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S10x64 .f32 := Host.absf main_arg5
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x64 .f32 := Host.absf main_arg7
  let main_cst_10 : FVec F S_ .f32 := constant S_ .f32 0x7F800000#32
  let main_v30 : FVec F S10x64 .f32 := broadcastInDim S10x64 ![] bcast_S_S10x64 main_cst_10
  let main_v31 : IVec S10x64 1 := cmpf .olt main_v29 main_v30
  let main_c_11 : IVec S_ 1 := constantI S_ 1 1#1
  let main_v32 : IVec S_ 1 := (fun x v => Host.reduce IntOp.andi x v reducesTo_S10x64_S_d0_1 h_S_) main_v31 main_c_11
  let main_v33 : IVec S_ 1 := andi main_v28 main_v32
  main_v33

def fn {F : FTy → Type} [FloatOps F] (main_arg0 : FVec F S50000x64 .f32) (main_arg1 : IVec S2x1250000 32) (main_arg2 : FVec F S64x64 .f32) (main_arg3 : FVec F S64 .f32) (main_arg4 : FVec F S64x64 .f32) (main_arg5 : FVec F S10x64 .f32) (main_arg6 : FVec F S10 .f32) (main_arg7 : FVec F S10x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S1250000x64 : Shape := ⟨2, ![1250000, 64]⟩
abbrev S50000x1 : Shape := ⟨2, ![50000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S64x10 : Shape := ⟨2, ![64, 10]⟩
abbrev S1x10 : Shape := ⟨2, ![1, 10]⟩
abbrev S50000x10 : Shape := ⟨2, ![50000, 10]⟩
abbrev S5000x10 : Shape := ⟨2, ![5000, 10]⟩

abbrev nBuf : Space → Nat
  | .hbm => 64
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S10x64, .f32⟩
  | .hbm, ⟨6, _⟩ => ⟨S10, .f32⟩
  | .hbm, ⟨7, _⟩ => ⟨S10x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S50000, .f32⟩
  | .hbm, ⟨16, _⟩ => ⟨S1250000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000x64, .f32⟩
  | .hbm, ⟨33, _⟩ => ⟨S_, .f32⟩
  | .hbm, ⟨34, _⟩ => ⟨S50000x64, .f32⟩
  | .hbm, ⟨35, _⟩ => ⟨S1250000x1, .i32⟩
  | .hbm, ⟨36, _⟩ => ⟨S50000x64, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S_, .f32⟩
  | .hbm, ⟨54, _⟩ => ⟨S50000x64, .f32⟩
  | .hbm, ⟨55, _⟩ => ⟨S1250000x1, .i32⟩
  | .hbm, ⟨56, _⟩ => ⟨S50000x64, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S64x10, .f32⟩
  | .hbm, ⟨61, _⟩ => ⟨S64x10, .f32⟩
  | .hbm, ⟨62, _⟩ => ⟨S1x10, .f32⟩
  | .hbm, ⟨63, _⟩ => ⟨S50000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x10, .f32⟩
  | .local _ .vmem, ⟨14, _⟩ => ⟨S1x10, .f32⟩
  | .local _ .vmem, ⟨15, _⟩ => ⟨S64x10, .f32⟩
  | .local _ .vmem, ⟨16, _⟩ => ⟨S5000x10, .f32⟩
  | .local _ .vmem, ⟨17, _⟩ => ⟨S5000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  transposes_S10x64_S64x10_1_0 : S10x64.Transposes [1, 0] S64x10
  shapeCasts_S10_S1x10 : S10.ShapeCasts S1x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S50000_S1250000x1_S1250000_n_0_0_1_wf : ScatterDims.WF S50000 S1250000x1 S1250000 [] [0] [0] 1
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x10.size a ≤ S64x10.size a
  hwx1_2 : ∀ i : grid1.Coords, EltTy.bits .f32 = 32 ∨ (Rect.block (s := S64x10) S64x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x10.size a ≤ S64x10.size a
  hwx1_4 : ∀ i : grid1.Coords, EltTy.bits .f32 = 32 ∨ (Rect.block (s := S64x10) S64x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S50000x10.size a
  hwx1_5 : ∀ i : grid1.Coords, EltTy.bits .f32 = 32 ∨ (Rect.block (s := S50000x10) S5000x10.size (cc1_transform_5 i) (hinb1_5 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S64x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000 : Shape := ⟨1, ![50000]⟩
abbrev S50000x1 : Shape := ⟨2, ![50000, 1]⟩
abbrev S1x64 : Shape := ⟨2, ![1, 64]⟩
abbrev S64x10 : Shape := ⟨2, ![64, 10]⟩
abbrev S50000x10 : Shape := ⟨2, ![50000, 10]⟩
abbrev S1x10 : Shape := ⟨2, ![1, 10]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S10x64, .f32⟩
  | .hbm, ⟨6, _⟩ => ⟨S10, .f32⟩
  | .hbm, ⟨7, _⟩ => ⟨S10x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S50000x64, .f32⟩
  | .hbm, ⟨23, _⟩ => ⟨S1250000x1, .i32⟩
  | .hbm, ⟨24, _⟩ => ⟨S50000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S50000, .f32⟩
  | .hbm, ⟨29, _⟩ => ⟨S1250000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S64x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S64x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S_, .i32⟩
  | .hbm, ⟨59, _⟩ => ⟨S1250000, .i32⟩
  | .hbm, ⟨60, _⟩ => ⟨S1250000, .i1⟩
  | .hbm, ⟨61, _⟩ => ⟨S_, .i32⟩
  | .hbm, ⟨62, _⟩ => ⟨S1250000, .i32⟩
  | .hbm, ⟨63, _⟩ => ⟨S1250000, .i32⟩
  | .hbm, ⟨64, _⟩ => ⟨S1250000, .i32⟩
  | .hbm, ⟨65, _⟩ => ⟨S1250000x1, .i32⟩
  | .hbm, ⟨66, _⟩ => ⟨S1250000x64, .f32⟩
  | .hbm, ⟨67, _⟩ => ⟨S_, .f32⟩
  | .hbm, ⟨68, _⟩ => ⟨S50000x64, .f32⟩
  | .hbm, ⟨69, _⟩ => ⟨S1250000x1, .i32⟩
  | .hbm, ⟨70, _⟩ => ⟨S50000x64, .f32⟩
  | .hbm, ⟨71, _⟩ => ⟨S_, .f32⟩
  | .hbm, ⟨72, _⟩ => ⟨S1250000, .f32⟩
  | .hbm, ⟨73, _⟩ => ⟨S_, .f32⟩
  | .hbm, ⟨74, _⟩ => ⟨S50000, .f32⟩
  | .hbm, ⟨75, _⟩ => ⟨S1250000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x64, .f32⟩
  | .hbm, ⟨82, _⟩ => ⟨S50000x64, .f32⟩
  | .hbm, ⟨83, _⟩ => ⟨S64x10, .f32⟩
  | .hbm, ⟨84, _⟩ => ⟨S50000x10, .f32⟩
  | .hbm, ⟨85, _⟩ => ⟨S1x10, .f32⟩
  | .hbm, ⟨86, _⟩ => ⟨S50000x10, .f32⟩
  | .hbm, ⟨87, _⟩ => ⟨S50000x10, .f32⟩
  | .hbm, ⟨88, _⟩ => ⟨S64x10, .f32⟩
  | .hbm, ⟨89, _⟩ => ⟨S50000x10, .f32⟩
  | .hbm, ⟨90, _⟩ => ⟨S50000x10, .f32⟩
  | .hbm, ⟨91, _⟩ => ⟨S50000x10, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S50000x10, .f32⟩
  | .hbm, ⟨100, _⟩ => ⟨S50000x10, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x10, .f32⟩
  | .hbm, ⟨108, _⟩ => ⟨S50000x10, .f32⟩
  | .hbm, ⟨109, _⟩ => ⟨S50000x10, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x10, .f32⟩
  | .hbm, ⟨115, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v69 : Ref sig .tc := ⟨.hbm, 115, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  transposes_S10x64_S64x10_1_0 : S10x64.Transposes [1, 0] S64x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  bcast_S50000x1_S50000x10_0_1 : S50000x1.BroadcastsInDim S50000x10 (![0, 1] : Fin 2 → Fin S50000x10.rank)
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1
  dot_S50000x64_S64x64_S50000x64_1_0_0_1_n_n_wf : DotDims.WF S50000x64 S64x64 S50000x64 [1] [0] [0] [1] [] []
  dot_S50000x64_S64x10_S50000x10_1_0_0_1_n_n_wf : DotDims.WF S50000x64 S64x10 S50000x10 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.Spec.lean ====
/-
  A two-layer neighbourhood-mean network on a graph, as functions of its argument arrays.

  Nodes 0 … 49999 carry 64 features. An edge list (source row, destination row) gives, for a node r, the rows
  e whose destination is r; the aggregate of an array x at r is the sum over those e of the row of x at e's
  source (read the way an indexing reads it: a negative source counted from the end, then clamped), and the count
  at r the number of such e. A layer takes the mean (aggregate over max(count, 1)) and x itself through two linear
  maps and a bias, scales each row to unit Euclidean length (the length no smaller than a tiny constant), and either
  rectifies (layer one) or takes the log-softmax along the row (layer two, 10 classes).

  This file fixes those functions twice. First as terms over whole arrays, in the spelling of a host program
  (one small definition per stage, each stage a leaf of the next, so that no term repeats another). The mean is
  stated in two forms — the aggregate DIVIDED by the clipped count, and the aggregate TIMES the reciprocal of
  the clipped count — which agree because a clipped count is a real number at least one. Second, a layer as a
  function of one ROW: the two dot products, the bias, the row's length, the quotient, and the rectifier or the
  log-softmax, each over `Fin`-indexed sums of extended reals; a layer's value at entry (r, q) is the row function
  of row r at q. The log-softmax appears in two arrangements, `y - (log Σ exp (y - M) + M)` and
  `(y - M) - log Σ exp (y - M)`, with `M` the row's maximum: equal when the row is real.
-/
import Idealize.ShloMosaic.PureOps
import Idealize.ShloMosaic.PureOps.Ideal
import Idealize.ShloMosaic.Lib.ValueIdx

noncomputable section

namespace Cert.Sage

open Idealize.ShloMosaic Idealize.ShloMosaic.ValueIdx
open scoped BigOperators

/-! ## Shapes -/

abbrev S_ : Shape := ⟨0, ![]⟩
abbrev S50000x64 : Shape := ⟨2, ![50000, 64]⟩
abbrev S50000x10 : Shape := ⟨2, ![50000, 10]⟩
abbrev S50000x1 : Shape := ⟨2, ![50000, 1]⟩
abbrev S50000 : Shape := ⟨1, ![50000]⟩
abbrev S2x1250000 : Shape := ⟨2, ![2, 1250000]⟩
abbrev S1x1250000 : Shape := ⟨2, ![1, 1250000]⟩
abbrev S1250000 : Shape := ⟨1, ![1250000]⟩
abbrev S1250000x1 : Shape := ⟨2, ![1250000, 1]⟩
abbrev S1250000x64 : Shape := ⟨2, ![1250000, 64]⟩
abbrev S64x64 : Shape := ⟨2, ![64, 64]⟩
abbrev S10x64 : Shape := ⟨2, ![10, 64]⟩
abbrev S64x10 : Shape := ⟨2, ![64, 10]⟩
abbrev S64 : Shape := ⟨1, ![64]⟩
abbrev S10 : Shape := ⟨1, ![10]⟩
abbrev S1x64 : Shape := ⟨2, ![1, 64]⟩
abbrev S1x10 : Shape := ⟨2, ![1, 10]⟩

/-- The dimension numbers of the program's gather, its two scatter-adds and its two matrix products. -/
structure Dims where
  g : GatherDims S50000x64 S1250000x1 S1250000x64
  d2 : ScatterDims S50000x64 S1250000x1 S1250000x64
  d1 : ScatterDims S50000 S1250000x1 S1250000
  dA : DotDims S50000x64 S64x64 S50000x64
  dB : DotDims S50000x64 S64x10 S50000x10

/-- They are the dimension numbers of a row take, a row and a vector segment sum, and two plain matrix products. -/
structure Dims.Ok (D : Dims) : Prop where
  g_od : D.g.offsetDims = [1]
  g_cd : D.g.collapsedSliceDims = [0]
  g_ob : D.g.operandBatchingDims = []
  g_sb : D.g.startIndicesBatchingDims = []
  g_sm : D.g.startIndexMap = [0]
  g_iv : D.g.indexVectorDim = 1
  g_ss : D.g.sliceSizes = ![1, 64]
  d2_uw : D.d2.updateWindowDims = [1]
  d2_iw : D.d2.insertedWindowDims = [0]
  d2_sd : D.d2.scatterDimsToOperandDims = [0]
  d2_iv : D.d2.indexVectorDim = 1
  d1_uw : D.d1.updateWindowDims = []
  d1_iw : D.d1.insertedWindowDims = [0]
  d1_sd : D.d1.scatterDimsToOperandDims = [0]
  d1_iv : D.d1.indexVectorDim = 1
  dA_lc : D.dA.lhsContracting = [1]
  dA_rc : D.dA.rhsContracting = [0]
  dA_ln : D.dA.lhsNonContracting = [0]
  dA_rn : D.dA.rhsNonContracting = [1]
  dA_lb : D.dA.lhsBatch = []
  dA_rb : D.dA.rhsBatch = []
  dB_lc : D.dB.lhsContracting = [1]
  dB_rc : D.dB.rhsContracting = [0]
  dB_ln : D.dB.lhsNonContracting = [0]
  dB_rn : D.dB.rhsNonContracting = [1]
  dB_lb : D.dB.lhsBatch = []
  dB_rb : D.dB.rhsBatch = []

/-! ## Whole arrays, in a host program's spelling (any float family) -/

section Vectors
variable {F : FTy → Type} [FloatOps F] (D : Dims)

/-- Row `k` of the edge list as a vector: the sources (`k = 0`) or the destinations (`k = 1`). -/
def edgeRow (k : Nat) (hk : S2x1250000.Slices ![k, 0] S1x1250000) (ei : IVec S2x1250000 32) : IVec S1250000 32 :=
  shapeCast S1250000 (extractStridedSlice S1x1250000 ![k, 0] ei hk) (by decide)
def srcOf (ei : IVec S2x1250000 32) : IVec S1250000 32 := edgeRow 0 (by decide) ei
def dstOf (ei : IVec S2x1250000 32) : IVec S1250000 32 := edgeRow 1 (by decide) ei

/-- An index counted from the end made one counted from the start: 50000 added to a negative word. -/
def wrap (v : IVec S1250000 32) : IVec S1250000 32 :=
  select (cmpi .slt v (broadcastInDim S1250000 ![] (by decide) (constantI S_ 32 0#32)))
    (addi v (broadcastInDim S1250000 ![] (by decide) (constantI S_ 32 50000#32))) v
/-- A vector of row numbers as the column of start (or scatter) indices. -/
def col (v : IVec S1250000 32) : IVec S1250000x1 32 := broadcastInDim S1250000x1 ![0] (by decide) v

/-- The aggregate: the rows of `x` at the sources, summed into the destinations. -/
def agg (x : FVec F S50000x64 .f32) (src dst : IVec S1250000 32) : FVec F S50000x64 .f32 :=
  Host.scatterAdd D.d2 (broadcastInDim S50000x64 ![] (by decide) (constant S_ .f32 0x00000000#32)) (col dst)
    (Host.gather D.g x (col (wrap src)))
/-- The count of edges into each node. -/
def cnt (dst : IVec S1250000 32) : FVec F S50000 .f32 :=
  Host.scatterAdd D.d1 (broadcastInDim S50000 ![] (by decide) (constant S_ .f32 0x00000000#32)) (col dst)
    (broadcastInDim S1250000 ![] (by decide) (constant S_ .f32 0x3F800000#32))
/-- The count, at least one. -/
def cmax (dst : IVec S1250000 32) : FVec F S50000 .f32 :=
  maximumf (cnt (F := F) D dst) (broadcastInDim S50000 ![] (by decide) (constant S_ .f32 0x3F800000#32))
/-- A per-node value repeated along the 64 features. -/
def spread (v : FVec F S50000 .f32) : FVec F S50000x64 .f32 :=
  broadcastInDim S50000x64 ![0, 1] (by decide) (broadcastInDim S50000x1 ![0] (by decide) v)

/-- The mean as a quotient by the clipped count. -/
def meanR (x : FVec F S50000x64 .f32) (src dst : IVec S1250000 32) : FVec F S50000x64 .f32 :=
  Host.divf (agg D x src dst) (spread (cmax D dst))
/-- The mean as a product with the clipped count's reciprocal. -/
def meanK (x : FVec F S50000x64 .f32) (src dst : IVec S1250000 32) : FVec F S50000x64 .f32 :=
  mulf (agg D x src dst)
    (spread (Host.divf (broadcastInDim S50000 ![] (by decide) (constant S_ .f32 0x3F800000#32)) (cmax D dst)))

/-- Layer one before the normalisation: `mean · Wlᵀ + b + x · Wrᵀ`. -/
def pre1R (mean x : FVec F S50000x64 .f32) (Wl : FVec F S64x64 .f32) (b : FVec F S64 .f32) (Wr : FVec F S64x64 .f32) :
    FVec F S50000x64 .f32 :=
  addf (addf (Host.dotGeneral D.dA none mean (transpose S64x64 [1, 0] Wl (by decide)))
      (broadcastInDim S50000x64 ![0, 1] (by decide) (broadcastInDim S1x64 ![1] (by decide) b)))
    (Host.dotGeneral D.dA none x (transpose S64x64 [1, 0] Wr (by decide)))
/-- Each row's Euclidean length, as a column. -/
def norm1R (v : FVec F S50000x64 .f32) : FVec F S50000x1 .f32 :=
  Host.sqrt (broadcastInDim S50000x1 ![0] (by decide)
    (Host.reduceAdd (t := S50000) (mulf v v) (constant S_ .f32 0x00000000#32) (show S50000x64.ReducesTo [1] S50000 by decide) (by decide)))
/-- Each row over its length, the length at least the tiny constant. -/
def unit1R (v : FVec F S50000x64 .f32) : FVec F S50000x64 .f32 :=
  Host.divf v (broadcastInDim S50000x64 ![0, 1] (by decide)
    (maximumf (norm1R v) (broadcastInDim S50000x1 ![] (by decide) (constant S_ .f32 0x2B8CBCCC#32))))
/-- The rectifier. -/
def relu1R (v : FVec F S50000x64 .f32) : FVec F S50000x64 .f32 :=
  maximumf v (broadcastInDim S50000x64 ![] (by decide) (constant S_ .f32 0x00000000#32))
/-- Layer one. -/
def dense1R (mean x : FVec F S50000x64 .f32) (Wl : FVec F S64x64 .f32) (b : FVec F S64 .f32) (Wr : FVec F S64x64 .f32) :
    FVec F S50000x64 .f32 :=
  relu1R (unit1R (pre1R D mean x Wl b Wr))

/-- Layer two before the normalisation. -/
def pre2R (mean x : FVec F S50000x64 .f32) (Wl : FVec F S10x64 .f32) (b : FVec F S10 .f32) (Wr : FVec F S10x64 .f32) :
    FVec F S50000x10 .f32 :=
  addf (addf (Host.dotGeneral D.dB none mean (transpose S64x10 [1, 0] Wl (by decide)))
      (broadcastInDim S50000x10 ![0, 1] (by decide) (broadcastInDim S1x10 ![1] (by decide) b)))
    (Host.dotGeneral D.dB none x (transpose S64x10 [1, 0] Wr (by decide)))
def norm2R (v : FVec F S50000x10 .f32) : FVec F S50000x1 .f32 :=
  Host.sqrt (broadcastInDim S50000x1 ![0] (by decide)
    (Host.reduceAdd (t := S50000) (mulf v v) (constant S_ .f32 0x00000000#32) (show S50000x10.ReducesTo [1] S50000 by decide) (by decide)))
def unit2R (v : FVec F S50000x10 .f32) : FVec F S50000x10 .f32 :=
  Host.divf v (broadcastInDim S50000x10 ![0, 1] (by decide)
    (maximumf (norm2R v) (broadcastInDim S50000x1 ![] (by decide) (constant S_ .f32 0x2B8CBCCC#32))))
/-- A row's entries less the row's maximum. -/
def shiftR (y : FVec F S50000x10 .f32) : FVec F S50000x10 .f32 :=
  subf y (broadcastInDim S50000x10 ![0, 1] (by decide) (broadcastInDim S50000x1 ![0] (by decide)
    (maximumf (broadcastInDim S50000 ![] (by decide) (constant S_ .f32 0xFF800000#32))
      (Host.reduce (t := S50000) FloatOps.maximumf y (constant S_ .f32 0xFF800000#32) (show S50000x10.ReducesTo [1] S50000 by decide) (by decide)))))
/-- The log-softmax along a row: the shifted entries less the log of the sum of their exponentials. -/
def lsmR (y : FVec F S50000x10 .f32) : FVec F S50000x10 .f32 :=
  subf (shiftR y) (broadcastInDim S50000x10 ![0, 1] (by decide)
    (Host.log (broadcastInDim S50000x1 ![0] (by decide)
      (Host.reduceAdd (t := S50000) (Host.exp (shiftR y)) (constant S_ .f32 0x00000000#32) (show S50000x10.ReducesTo [1] S50000 by decide) (by decide)))))
/-- Layer two. -/
def dense2R (mean x : FVec F S50000x64 .f32) (Wl : FVec F S10x64 .f32) (b : FVec F S10 .f32) (Wr : FVec F S10x64 .f32) :
    FVec F S50000x10 .f32 :=
  lsmR (unit2R (pre2R D mean x Wl b Wr))

/-- The first layer's output, from the arguments. -/
def x1R (x0 : FVec F S50000x64 .f32) (ei : IVec S2x1250000 32) (W1l : FVec F S64x64 .f32) (b1 : FVec F S64 .f32)
    (W1r : FVec F S64x64 .f32) : FVec F S50000x64 .f32 :=
  dense1R D (meanR D x0 (srcOf ei) (dstOf ei)) x0 W1l b1 W1r
/-- The network's output, from the first layer's output and the arguments. -/
def outOfX1R (x1 : FVec F S50000x64 .f32) (ei : IVec S2x1250000 32) (W2l : FVec F S10x64 .f32) (b2 : FVec F S10 .f32)
    (W2r : FVec F S10x64 .f32) : FVec F S50000x10 .f32 :=
  dense2R D (meanR D x1 (srcOf ei) (dstOf ei)) x1 W2l b2 W2r
/-- The network's output, from the arguments. -/
def outR (x0 : FVec F S50000x64 .f32) (ei : IVec S2x1250000 32) (W1l : FVec F S64x64 .f32) (b1 : FVec F S64 .f32)
    (W1r : FVec F S64x64 .f32) (W2l : FVec F S10x64 .f32) (b2 : FVec F S10 .f32) (W2r : FVec F S10x64 .f32) :
    FVec F S50000x10 .f32 :=
  outOfX1R D (x1R D x0 ei W1l b1 W1r) ei W2l b2 W2r

end Vectors

/-! ## One row, over the extended reals -/

/-- The tiny constant below which a row's length is not used, and the floor a row's maximum starts from. -/
def eps : EReal := Ideal.ofBits .f32 0x2B8CBCCC#32
def ninf : EReal := Ideal.ofBits .f32 0xFF800000#32

section Rows
variable {n : Nat}

/-- A row against the columns of a matrix. -/
def dotRow (a : Fin 64 → EReal) (w : Fin 64 → Fin n → EReal) (q : Fin n) : EReal := ∑ k : Fin 64, a k * w k q
/-- `(mean · wl + x · wr) + b`. -/
def preK (mr xr : Fin 64 → EReal) (wl wr : Fin 64 → Fin n → EReal) (b : Fin n → EReal) (q : Fin n) : EReal :=
  (dotRow mr wl q + dotRow xr wr q) + b q
/-- `(mean · wl + b) + x · wr`. -/
def preR (mr xr : Fin 64 → EReal) (wl wr : Fin 64 → Fin n → EReal) (b : Fin n → EReal) (q : Fin n) : EReal :=
  (dotRow mr wl q + b q) + dotRow xr wr q
/-- The row's length, at least the tiny constant. -/
def nrm (v : Fin n → EReal) : EReal := max (Ideal.sqrt (∑ j : Fin n, v j * v j)) eps
/-- The row over its length. -/
def unit (v : Fin n → EReal) (q : Fin n) : EReal := Ideal.div (v q) (nrm v)
/-- The rectified unit row. -/
def rect (v : Fin n → EReal) (q : Fin n) : EReal := max (unit v q) 0
/-- The row's maximum. -/
def rmax (y : Fin n → EReal) : EReal := (Finset.univ : Finset (Fin n)).fold max ninf y
/-- The log-softmax, the maximum added back to the log before the subtraction. -/
def lsmK (y : Fin n → EReal) (q : Fin n) : EReal :=
  y q - (Ideal.log (∑ j : Fin n, Ideal.exp (y j - rmax y)) + rmax y)
/-- The log-softmax, the maximum subtracted first. -/
def lsmRow (y : Fin n → EReal) (q : Fin n) : EReal :=
  (y q - rmax y) - Ideal.log (∑ j : Fin n, Ideal.exp (y j - rmax y))

end Rows

/-! ## A layer at an entry is the row function of its row -/

/-- Row `r` of a matrix of `c` columns. -/
def rowOf {R c : Nat} (x : (⟨2, ![R, c]⟩ : Shape).Idx → EReal) (r : Fin R) : Fin c → EReal := fun k => x (ix2 r k)
/-- A matrix by coordinates, and the transposed reading of one. -/
def mat {a c : Nat} (w : (⟨2, ![a, c]⟩ : Shape).Idx → EReal) : Fin a → Fin c → EReal := fun k j => w (ix2 k j)
def matT {a c : Nat} (w : (⟨2, ![a, c]⟩ : Shape).Idx → EReal) : Fin c → Fin a → EReal := fun k j => w (ix2 j k)

/-- Layer one, the weights laid out [in, out] and the bias a one-row matrix; sum order `(· + ·) + b`. -/
def layer1K (mean x : FVec Ideal S50000x64 .f32) (wlT wrT : FVec Ideal S64x64 .f32) (brow : FVec Ideal S1x64 .f32) :
    FVec Ideal S50000x64 .f32 := fun i =>
  rect (preK (rowOf mean (i 0)) (rowOf x (i 0)) (mat wlT) (mat wrT) (rowOf brow 0)) (i 1)
/-- Layer one, the weights laid out [out, in] and the bias a vector; sum order `(· + b) + ·`. -/
def layer1R (mean x : FVec Ideal S50000x64 .f32) (Wl Wr : FVec Ideal S64x64 .f32) (b : FVec Ideal S64 .f32) :
    FVec Ideal S50000x64 .f32 := fun i =>
  rect (preR (rowOf mean (i 0)) (rowOf x (i 0)) (matT Wl) (matT Wr) (fun j => b (ix1 j))) (i 1)
/-- Layer two, the weights laid out [in, out]; the log-softmax with the maximum added back. -/
def layer2K (mean x : FVec Ideal S50000x64 .f32) (wlT wrT : FVec Ideal S64x10 .f32) (brow : FVec Ideal S1x10 .f32) :
    FVec Ideal S50000x10 .f32 := fun i =>
  lsmK (unit (preK (rowOf mean (i 0)) (rowOf x (i 0)) (mat wlT) (mat wrT) (rowOf brow 0))) (i 1)
/-- Layer two, the weights laid out [out, in]; the log-softmax with the maximum subtracted first. -/
def layer2R (mean x : FVec Ideal S50000x64 .f32) (Wl Wr : FVec Ideal S10x64 .f32) (b : FVec Ideal S10 .f32) :
    FVec Ideal S50000x10 .f32 := fun i =>
  lsmRow (unit (preR (rowOf mean (i 0)) (rowOf x (i 0)) (matT Wl) (matT Wr) (fun j => b (ix1 j)))) (i 1)

/-- The weights and the bias as the kernel's program lays them out for a region: the transposes and the bias as a row. -/
def tr64 (W : FVec Ideal S64x64 .f32) : FVec Ideal S64x64 .f32 := transpose S64x64 [1, 0] W (by decide)
def tr10 (W : FVec Ideal S10x64 .f32) : FVec Ideal S64x10 .f32 := transpose S64x10 [1, 0] W (by decide)
def row64 (b : FVec Ideal S64 .f32) : FVec Ideal S1x64 .f32 := shapeCast S1x64 b (by decide)
def row10 (b : FVec Ideal S10 .f32) : FVec Ideal S1x10 .f32 := shapeCast S1x10 b (by decide)

/-- The first layer's output as the kernel's program computes it. -/
def x1K (D : Dims) (x0 : FVec Ideal S50000x64 .f32) (ei : IVec S2x1250000 32) (W1l : FVec Ideal S64x64 .f32)
    (b1 : FVec Ideal S64 .f32) (W1r : FVec Ideal S64x64 .f32) : FVec Ideal S50000x64 .f32 :=
  layer1K (meanK D x0 (srcOf ei) (dstOf ei)) x0 (tr64 W1l) (tr64 W1r) (row64 b1)
/-- The network's output as the kernel's program computes it. -/
def outK (D : Dims) (x0 : FVec Ideal S50000x64 .f32) (ei : IVec S2x1250000 32) (W1l : FVec Ideal S64x64 .f32)
    (b1 : FVec Ideal S64 .f32) (W1r : FVec Ideal S64x64 .f32) (W2l : FVec Ideal S10x64 .f32) (b2 : FVec Ideal S10 .f32)
    (W2r : FVec Ideal S10x64 .f32) : FVec Ideal S50000x10 .f32 :=
  layer2K (meanK D (x1K D x0 ei W1l b1 W1r) (srcOf ei) (dstOf ei)) (x1K D x0 ei W1l b1 W1r) (tr10 W2l) (tr10 W2r) (row10 b2)

end Cert.Sage

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.KPay.lean ====
/-
  The two kernel bodies' stored values at an entry, at the ideal values: each is the layer's row function of the
  entry's row of the two row-blocks, the weights read by coordinates and the bias from its one row.
-/
import proofs.«108602_j31894427140226_1_alg».proof.Proof.Gen.KernelIdeal.Skeleton
import proofs.«108602_j31894427140226_1_alg».proof.Proof.Spec
import proofs.«108602_j31894427140226_1_alg».proof.Proof.LibPlainDot
import proofs.«108602_j31894427140226_1_alg».proof.Proof.LibColumnForms

noncomputable section

namespace Cert.KernelIdeal.KPay

open Idealize.ShloMosaic Idealize.ShloMosaic.ValueIdx Cert.KernelIdeal Cert.KernelIdeal.Gen

/-! ## The steps that are not pointwise, over any row count `R` and column count `c` -/

section Steps
variable {R c : Nat}

/-- The index over row `p` with the coordinate `k` put back on the second axis is `(p, k)`. -/
theorem lift_row (h : (⟨2, ![R, c]⟩ : Shape).Reduces [1] ⟨1, ![R]⟩) (p : Fin R) (k : Fin c) :
    h.lift (ix1 p) k = ix2 p k := by
  funext a
  match a with
  | ⟨0, _⟩ => exact Fin.ext rfl
  | ⟨1, _⟩ => exact Fin.ext rfl

/-- A sum along the rows, at row `p`: the sum of the row's entries. -/
theorem rowSum_apply (V : FVec Ideal ⟨2, ![R, c]⟩ .f32) (h : (⟨2, ![R, c]⟩ : Shape).Reduces [1] ⟨1, ![R]⟩)
    (hφ : FKind.Formats .f32) (hacc : (0x00000000#32 : BitVec 32) = FKind.add.neutral .f32 hφ) (p : Fin R) :
    multiReduction .add [1] ⟨1, ![R]⟩ V 0x00000000#32 h hφ hacc (ix1 p) = ∑ k : Fin c, V (ix2 p k) :=
  (Ideal.multiReduction_add_single V _ h hφ hacc (ix1 p)).trans
    (Finset.sum_congr rfl fun k _ => congrArg V (lift_row h p k))

/-- A maximum along the rows from minus infinity, at row `p`: the row's maximum. -/
theorem rowMax_apply (V : FVec Ideal ⟨2, ![R, c]⟩ .f32) (h : (⟨2, ![R, c]⟩ : Shape).Reduces [1] ⟨1, ![R]⟩)
    (hφ : FKind.Formats .f32) (hacc : (0xFF800000#32 : BitVec 32) = FKind.maximumf.neutral .f32 hφ) (p : Fin R) :
    multiReduction .maximumf [1] ⟨1, ![R]⟩ V 0xFF800000#32 h hφ hacc (ix1 p) = Cert.Sage.rmax (fun k => V (ix2 p k)) := by
  refine (Ideal.multiReduction_maximumf_single V _ h hφ hacc (ix1 p)).trans ?_
  have e : (V ∘ h.lift (ix1 p)) = fun k : Fin c => V (ix2 p k) := funext fun k => congrArg V (lift_row h p k)
  rw [e]
  rfl

/-- The length column at `(p, u)`: the length of row `p`, at least the tiny constant. -/
theorem nrmCol_apply (V : FVec Ideal ⟨2, ![R, c]⟩ .f32) (h : (⟨2, ![R, c]⟩ : Shape).Reduces [1] ⟨1, ![R]⟩)
    (hφ : FKind.Formats .f32) (hacc : (0x00000000#32 : BitVec 32) = FKind.add.neutral .f32 hφ)
    (hs : (⟨1, ![R]⟩ : Shape).ShapeCasts ⟨2, ![R, 1]⟩) (p : Fin R) (u : Fin 1) :
    maximumf (sqrt (shapeCast ⟨2, ![R, 1]⟩ (multiReduction .add [1] ⟨1, ![R]⟩ (mulf V V) 0x00000000#32 h hφ hacc) hs))
        (broadcast ⟨2, ![R, 1]⟩ (Scalar.ofBits (F := Ideal) .f32 0x2B8CBCCC#32)) (ix2 p u)
      = Cert.Sage.nrm (fun j => V (ix2 p j)) := by
  show max (Ideal.sqrt (shapeCast ⟨2, ![R, 1]⟩ (multiReduction .add [1] ⟨1, ![R]⟩ (mulf V V) 0x00000000#32 h hφ hacc) hs (ix2 p u)))
      (Ideal.ofBits .f32 0x2B8CBCCC#32) = _
  rw [ColumnForms.shapeCast_a_a1_apply, rowSum_apply]
  rfl

/-- A row over its length, at `(p, q)`. -/
theorem unit_apply (V : FVec Ideal ⟨2, ![R, c]⟩ .f32) (h : (⟨2, ![R, c]⟩ : Shape).Reduces [1] ⟨1, ![R]⟩)
    (hφ : FKind.Formats .f32) (hacc : (0x00000000#32 : BitVec 32) = FKind.add.neutral .f32 hφ)
    (hs : (⟨1, ![R]⟩ : Shape).ShapeCasts ⟨2, ![R, 1]⟩) (hb : (⟨2, ![R, 1]⟩ : Shape).Broadcasts ⟨2, ![R, c]⟩)
    (p : Fin R) (q : Fin c) :
    divf V (broadcastTo ⟨2, ![R, c]⟩
        (maximumf (sqrt (shapeCast ⟨2, ![R, 1]⟩ (multiReduction .add [1] ⟨1, ![R]⟩ (mulf V V) 0x00000000#32 h hφ hacc) hs))
          (broadcast ⟨2, ![R, 1]⟩ (Scalar.ofBits (F := Ideal) .f32 0x2B8CBCCC#32))) hb) (ix2 p q)
      = Cert.Sage.unit (fun j => V (ix2 p j)) q := by
  show Ideal.div (V (ix2 p q)) (broadcastTo ⟨2, ![R, c]⟩ _ hb (ix2 p q)) = _
  rw [ColumnForms.broadcastTo_a1_ac_apply, nrmCol_apply]
  rfl

/-- The two products into zero, summed, plus the bias row, at `(p, q)`. -/
theorem pre_apply (d : DotDims ⟨2, ![R, 64]⟩ ⟨2, ![64, c]⟩ ⟨2, ![R, c]⟩)
    (hlc : d.lhsContracting = [1]) (hrc : d.rhsContracting = [0])
    (hln : d.lhsNonContracting = [0]) (hrn : d.rhsNonContracting = [1])
    (hlb : d.lhsBatch = []) (hrb : d.rhsBatch = [])
    (a b : FVec Ideal ⟨2, ![R, 64]⟩ .bf16) (wl wr : FVec Ideal ⟨2, ![64, c]⟩ .bf16) (brow : FVec Ideal ⟨2, ![1, c]⟩ .f32)
    (hb : (⟨2, ![1, c]⟩ : Shape).Broadcasts ⟨2, ![R, c]⟩) (p : Fin R) (q : Fin c) :
    addf (addf (matmul d none a wl (constant ⟨2, ![R, c]⟩ .f32 0x00000000#32))
        (matmul d none b wr (constant ⟨2, ![R, c]⟩ .f32 0x00000000#32))) (broadcastTo ⟨2, ![R, c]⟩ brow hb) (ix2 p q)
      = Cert.Sage.preK (fun k => a (ix2 p k)) (fun k => b (ix2 p k)) (fun k j => wl (ix2 k j)) (fun k j => wr (ix2 k j))
          (fun j => brow (ix2 0 j)) q := by
  show (FloatOps.matmul d none a wl (constant ⟨2, ![R, c]⟩ .f32 0x00000000#32) (ix2 p q)
      + FloatOps.matmul d none b wr (constant ⟨2, ![R, c]⟩ .f32 0x00000000#32) (ix2 p q))
      + broadcastTo ⟨2, ![R, c]⟩ brow hb (ix2 p q) = _
  rw [Cert.LibPlainDot.matmul_zero_apply d hlc hrc hln hrn hlb hrb, Cert.LibPlainDot.matmul_zero_apply d hlc hrc hln hrn hlb hrb,
    broadcastTo_1b_ab_apply]
  rfl

end Steps

section Steps2
variable {R c : Nat}

/-- The rectified unit row, at `(p, q)`. -/
theorem rect_apply (V : FVec Ideal ⟨2, ![R, c]⟩ .f32) (h : (⟨2, ![R, c]⟩ : Shape).Reduces [1] ⟨1, ![R]⟩)
    (hφ : FKind.Formats .f32) (hacc : (0x00000000#32 : BitVec 32) = FKind.add.neutral .f32 hφ)
    (hs : (⟨1, ![R]⟩ : Shape).ShapeCasts ⟨2, ![R, 1]⟩) (hb : (⟨2, ![R, 1]⟩ : Shape).Broadcasts ⟨2, ![R, c]⟩)
    (p : Fin R) (q : Fin c) :
    maximumf (divf V (broadcastTo ⟨2, ![R, c]⟩
        (maximumf (sqrt (shapeCast ⟨2, ![R, 1]⟩ (multiReduction .add [1] ⟨1, ![R]⟩ (mulf V V) 0x00000000#32 h hφ hacc) hs))
          (broadcast ⟨2, ![R, 1]⟩ (Scalar.ofBits (F := Ideal) .f32 0x2B8CBCCC#32))) hb))
        (broadcast ⟨2, ![R, c]⟩ (Scalar.ofBits (F := Ideal) .f32 0x00000000#32)) (ix2 p q)
      = Cert.Sage.rect (fun j => V (ix2 p j)) q := by
  show max (divf V _ (ix2 p q)) (Ideal.ofBits .f32 0x00000000#32) = _
  rw [unit_apply, Ideal.ofBits_zero_f32]
  rfl

/-- The column of row maxima spread along the row, at `(p, q)`: the maximum of row `p`. -/
theorem maxCol_apply (Y : FVec Ideal ⟨2, ![R, c]⟩ .f32) (h : (⟨2, ![R, c]⟩ : Shape).Reduces [1] ⟨1, ![R]⟩)
    (hφ : FKind.Formats .f32) (hmax : (0xFF800000#32 : BitVec 32) = FKind.maximumf.neutral .f32 hφ)
    (hs : (⟨1, ![R]⟩ : Shape).ShapeCasts ⟨2, ![R, 1]⟩) (hb : (⟨2, ![R, 1]⟩ : Shape).Broadcasts ⟨2, ![R, c]⟩)
    (p : Fin R) (q : Fin c) :
    broadcastTo ⟨2, ![R, c]⟩ (shapeCast ⟨2, ![R, 1]⟩ (multiReduction .maximumf [1] ⟨1, ![R]⟩ Y 0xFF800000#32 h hφ hmax) hs) hb (ix2 p q)
      = Cert.Sage.rmax (fun k => Y (ix2 p k)) := by
  rw [ColumnForms.broadcastTo_a1_ac_apply, ColumnForms.shapeCast_a_a1_apply, rowMax_apply]

/-- The log-softmax with the maximum added back, at `(p, q)`. -/
theorem lsm_apply (Y : FVec Ideal ⟨2, ![R, c]⟩ .f32) (h : (⟨2, ![R, c]⟩ : Shape).Reduces [1] ⟨1, ![R]⟩)
    (hφ : FKind.Formats .f32) (hacc : (0x00000000#32 : BitVec 32) = FKind.add.neutral .f32 hφ)
    (hmax : (0xFF800000#32 : BitVec 32) = FKind.maximumf.neutral .f32 hφ)
    (hs : (⟨1, ![R]⟩ : Shape).ShapeCasts ⟨2, ![R, 1]⟩) (hb : (⟨2, ![R, 1]⟩ : Shape).Broadcasts ⟨2, ![R, c]⟩)
    (p : Fin R) (q : Fin c) :
    subf Y (broadcastTo ⟨2, ![R, c]⟩
        (addf (log (shapeCast ⟨2, ![R, 1]⟩ (multiReduction .add [1] ⟨1, ![R]⟩
            (exp (subf Y (broadcastTo ⟨2, ![R, c]⟩
              (shapeCast ⟨2, ![R, 1]⟩ (multiReduction .maximumf [1] ⟨1, ![R]⟩ Y 0xFF800000#32 h hφ hmax) hs) hb)))
            0x00000000#32 h hφ hacc) hs))
          (shapeCast ⟨2, ![R, 1]⟩ (multiReduction .maximumf [1] ⟨1, ![R]⟩ Y 0xFF800000#32 h hφ hmax) hs)) hb) (ix2 p q)
      = Cert.Sage.lsmK (fun j => Y (ix2 p j)) q := by
  show Y (ix2 p q) - broadcastTo ⟨2, ![R, c]⟩ _ hb (ix2 p q) = _
  rw [ColumnForms.broadcastTo_a1_ac_apply]
  show Y (ix2 p q) - (Ideal.log (shapeCast ⟨2, ![R, 1]⟩ _ hs (ix2 p 0)) + shapeCast ⟨2, ![R, 1]⟩ _ hs (ix2 p 0)) = _
  rw [ColumnForms.shapeCast_a_a1_apply, ColumnForms.shapeCast_a_a1_apply, rowSum_apply, rowMax_apply]
  have e : ∀ k : Fin c, exp (subf Y (broadcastTo ⟨2, ![R, c]⟩
      (shapeCast ⟨2, ![R, 1]⟩ (multiReduction .maximumf [1] ⟨1, ![R]⟩ Y 0xFF800000#32 h hφ hmax) hs) hb)) (ix2 p k)
      = Ideal.exp (Y (ix2 p k) - Cert.Sage.rmax (fun j => Y (ix2 p j))) := fun k =>
    congrArg (fun t => Ideal.exp (Y (ix2 p k) - t)) (maxCol_apply Y h hφ hmax hs hb p k)
  rw [Finset.sum_congr rfl fun k _ => e k]
  rfl

end Steps2

/-- The first region's stored value at (p, q): the rectified unit row of `(mean · wl + x · wr) + b`. -/
theorem pay0_apply (v0 v3 : Vec Ideal S5000x64 .f32) (v5 v8 : Vec Ideal S64x64 .f32) (v11 : Vec Ideal S1x64 .f32)
    (p : Fin 5000) (q : Fin 64) :
    k0_pay1 (F := Ideal) v0 v3 v5 v8 v11 (ix2 p q)
      = Cert.Sage.rect (Cert.Sage.preK (fun k => v0 (ix2 p k)) (fun k => v3 (ix2 p k)) (fun k j => v5 (ix2 k j))
          (fun k j => v8 (ix2 k j)) (fun j => v11 (ix2 0 j))) q := by
  unfold k0_pay1
  simp only [shapeCast_self]
  refine (rect_apply _ _ _ _ _ _ p q).trans ?_
  exact congrArg (fun v => Cert.Sage.rect v q) (funext fun j =>
    pre_apply dot_S5000x64_S64x64_S5000x64_1_0_0_1_n_n rfl rfl rfl rfl rfl rfl _ _ _ _ _ _ p j)

/-- The second region's stored value at (p, q): the log-softmax (maximum added back) of the unit row. -/
theorem pay1_apply (v0 v3 : Vec Ideal S5000x64 .f32) (v6 v9 : Vec Ideal S64x10 .f32) (v12 : Vec Ideal S1x10 .f32)
    (p : Fin 5000) (q : Fin 10) :
    k1_pay1 (F := Ideal) v0 v3 v6 v9 v12 (ix2 p q)
      = Cert.Sage.lsmK (Cert.Sage.unit (Cert.Sage.preK (fun k => v0 (ix2 p k)) (fun k => v3 (ix2 p k))
          (fun k j => v6 (ix2 k j)) (fun k j => v9 (ix2 k j)) (fun j => v12 (ix2 0 j)))) q := by
  unfold k1_pay1
  simp only [shapeCast_self]
  refine (lsm_apply _ _ _ _ _ _ _ p q).trans ?_
  refine congrArg (fun v => Cert.Sage.lsmK v q) (funext fun j => ?_)
  refine (unit_apply _ _ _ _ _ _ p j).trans ?_
  exact congrArg (fun v => Cert.Sage.unit v j) (funext fun i =>
    pre_apply dot_S5000x64_S64x10_S5000x10_1_0_0_1_n_n rfl rfl rfl rfl rfl rfl _ _ _ _ _ _ p i)

end Cert.KernelIdeal.KPay

end
-- ==== Proof.KBlocks.lean ====
/-
  What each region leaves in its output array, as one function of the arrays the region finds.

  A region's grid has ten points; point t stages rows 5000 t … 5000 t + 4999 of the two node arrays (the mean and the
  features) and the whole of the two weight matrices and the bias row, and writes back rows 5000 t … 5000 t + 4999 of the
  output. The body's stored value at (p, q) is the layer's row function of row p of the two staged blocks, which is row
  5000 t + p of the arrays: so what point t writes back is block t of the layer's array function, the ten blocks tile
  the 50000 rows, and the output array ends holding that function everywhere.
-/
import proofs.«108602_j31894427140226_1_alg».proof.Proof.Gen.KernelIdeal.Frame
import proofs.«108602_j31894427140226_1_alg».proof.Proof.KPay
import proofs.«108602_j31894427140226_1_alg».proof.Proof.Spec
import Idealize.ShloMosaic.Lib.Pipeline.Value

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the node windows and the output move to block t along the rows, the weights
    and the bias stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row p of the mean's block at point t is row 5000 t + p of the mean's array. -/
theorem blk0_0 (c : Dev nD) (t : Fin cfg0.N) (p : Fin 5000) (k : Fin 64) (r : Fin 50000) (hr : r.val = t.val * 5000 + p.val) :
    iblk0 V c 0 t (ix2 p k) = V c main_v24 (ix2 r k) := by
  obtain ⟨e0, e1, -⟩ := idx0 t
  show V c main_v24 (((cfg0.win 0).blk t).view.emb (ix2 p k)) = V c main_v24 (ix2 r k)
  refine congrArg (V c main_v24) ?_
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- Row p of the features' block at point t is row 5000 t + p of the features' array. -/
theorem blk0_1 (c : Dev nD) (t : Fin cfg0.N) (p : Fin 5000) (k : Fin 64) (r : Fin 50000) (hr : r.val = t.val * 5000 + p.val) :
    iblk0 V c 1 t (ix2 p k) = V c main_arg0 (ix2 r k) := by
  obtain ⟨-, -, e0, e1, -⟩ := idx0 t
  show V c main_arg0 (((cfg0.win 1).blk t).view.emb (ix2 p k)) = V c main_arg0 (ix2 r k)
  refine congrArg (V c main_arg0) ?_
  funext a; apply Fin.ext
  match a with
  | ⟨0, _⟩ => show win0_1.index t (0 : Fin 2) * 5000 + 1 * p.val = r.val; omega
  | ⟨1, _⟩ => show win0_1.index t (1 : Fin 2) * 64 + 1 * k.val = k.val; omega

/-- The first weight matrix is staged whole at every point. -/
theorem blk0_2 (c : Dev nD) (t : Fin cfg0.N) (k : Fin 64) (j : Fin 64) :
    iblk0 V c 2 t (ix2 k j) = V c main_v25 (ix2 k j) := by
  obtain ⟨-, -, -, -, e0, e1, -⟩ := idx0 t
  show V c main_v25 (((cfg0.win 2).blk t).view.emb (ix2 k j)) = V c main_v25 (ix2 k j)
  refine congrArg (V c main_v25) ?_
  funext a; apply Fin.ext
  match a with
  | ⟨0, _⟩ => show win0_2.index t (0 : Fin 2) * 64 + 1 * k.val = k.val; omega
  | ⟨1, _⟩ => show win0_2.index t (1 : Fin 2) * 64 + 1 * j.val = j.val; omega

/-- The bias row is staged whole at every point. -/
theorem blk0_3 (c : Dev nD) (t : Fin cfg0.N) (u : Fin 1) (j : Fin 64) :
    iblk0 V c 3 t (ix2 u j) = V c main_v27 (ix2 u j) := by
  obtain ⟨-, -, -, -, -, -, e0, e1, -⟩ := idx0 t
  show V c main_v27 (((cfg0.win 3).blk t).view.emb (ix2 u j)) = V c main_v27 (ix2 u j)
  refine congrArg (V c main_v27) ?_
  funext a; apply Fin.ext
  match a with
  | ⟨0, _⟩ => show win0_3.index t (0 : Fin 2) * 1 + 1 * u.val = u.val; omega
  | ⟨1, _⟩ => show win0_3.index t (1 : Fin 2) * 64 + 1 * j.val = j.val; omega

/-- The second weight matrix is staged whole at every point. -/
theorem blk0_4 (c : Dev nD) (t : Fin cfg0.N) (k : Fin 64) (j : Fin 64) :
    iblk0 V c 4 t (ix2 k j) = V c main_v26 (ix2 k j) := by
  obtain ⟨-, -, -, -, -, -, -, -, e0, e1, -⟩ := idx0 t
  show V c main_v26 (((cfg0.win 4).blk t).view.emb (ix2 k j)) = V c main_v26 (ix2 k j)
  refine congrArg (V c main_v26) ?_
  funext a; apply Fin.ext
  match a with
  | ⟨0, _⟩ => show win0_4.index t (0 : Fin 2) * 64 + 1 * k.val = k.val; omega
  | ⟨1, _⟩ => show win0_4.index t (1 : Fin 2) * 64 + 1 * j.val = j.val; omega

/-- The layer's array function of the arrays the region finds. -/
abbrev G0 (c : Dev nD) : S50000x64.Idx → EReal :=
  Cert.Sage.layer1K (V c main_v24) (V c main_arg0) (V c main_v25) (V c main_v26) (V c main_v27)

/-- What point t writes back is block t of the layer's array function. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e0, e1, ht⟩ := idx0 t
  funext y
  obtain ⟨p, q, rfl⟩ : ∃ (p : Fin 5000) (q : Fin 64), y = ix2 p q := ⟨y 0, y 1, eq_ix2 y⟩
  have hr : t.val * 5000 + p.val < 50000 := by have := p.isLt; omega
  have hemb : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (F := Ideal) (iblk0 V c 0 t) (iblk0 V c 1 t) (iblk0 V c 2 t) (iblk0 V c 4 t) (iblk0 V c 3 t) (ix2 p q)
      = G0 V c (((cfg0.win 5).blk t).view.emb (ix2 p q))
  rw [hemb, KPay.pay0_apply]
  show _ = Cert.Sage.rect (Cert.Sage.preK (Cert.Sage.rowOf (V c main_v24) ⟨t.val * 5000 + p.val, hr⟩)
      (Cert.Sage.rowOf (V c main_arg0) ⟨t.val * 5000 + p.val, hr⟩) (Cert.Sage.mat (V c main_v25)) (Cert.Sage.mat (V c main_v26))
      (Cert.Sage.rowOf (V c main_v27) 0)) q
  have h0 : (fun k => iblk0 V c 0 t (ix2 p k)) = Cert.Sage.rowOf (V c main_v24) ⟨t.val * 5000 + p.val, hr⟩ :=
    funext fun k => blk0_0 V c t p k _ rfl
  have h1 : (fun k => iblk0 V c 1 t (ix2 p k)) = Cert.Sage.rowOf (V c main_arg0) ⟨t.val * 5000 + p.val, hr⟩ :=
    funext fun k => blk0_1 V c t p k _ rfl
  have h2 : (fun k j => iblk0 V c 2 t (ix2 k j)) = Cert.Sage.mat (V c main_v25) :=
    funext fun k => funext fun j => blk0_2 V c t k j
  have h4 : (fun k j => iblk0 V c 4 t (ix2 k j)) = Cert.Sage.mat (V c main_v26) :=
    funext fun k => funext fun j => blk0_4 V c t k j
  have h3 : (fun j => iblk0 V c 3 t (ix2 0 j)) = Cert.Sage.rowOf (V c main_v27) 0 :=
    funext fun j => blk0_3 V c t 0 j
  rw [h0, h1, h2, h4, h3]

/-- An index of the output array is in point t's block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Every index of the output array is in some point's block: the point of its row's five-thousand. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_5 _, ?_⟩
  rw [mem_blk0]
  obtain ⟨-, -, -, -, -, -, -, -, -, -, e0, e1, -⟩ := idx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000
    omega
  | ⟨1, _⟩ =>
    show win0_5.index _ (1 : Fin 2) * 64 ≤ (i 1).val ∧ (i 1).val < win0_5.index _ (1 : Fin 2) * 64 + 64
    rw [e1]; omega

/-- The region's output array ends holding the layer's array function of the arrays the region finds. -/
theorem final0 (c : Dev nD) : (dat0 V c).arrAt 5 cfg0.N = G0 V c :=
  (dat0 V c).arrAt_eq_of_cover 5 (G0 V c) (fun t _ => flushed0_eq V c t) (cover0)

/-! ## Region 1 -/

/-- The printed index maps over the grid: the node windows and the output move to block t along the rows, the weights
    and the bias stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Row p of the mean's block at point t is row 5000 t + p of the mean's array. -/
theorem blk1_0 (c : Dev nD) (t : Fin cfg1.N) (p : Fin 5000) (k : Fin 64) (r : Fin 50000) (hr : r.val = t.val * 5000 + p.val) :
    iblk1 V c 0 t (ix2 p k) = V c main_v41 (ix2 r k) := by
  obtain ⟨e0, e1, -⟩ := idx1 t
  show V c main_v41 (((cfg1.win 0).blk t).view.emb (ix2 p k)) = V c main_v41 (ix2 r k)
  refine congrArg (V c main_v41) ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- Row p of the features' block at point t is row 5000 t + p of the features' array. -/
theorem blk1_1 (c : Dev nD) (t : Fin cfg1.N) (p : Fin 5000) (k : Fin 64) (r : Fin 50000) (hr : r.val = t.val * 5000 + p.val) :
    iblk1 V c 1 t (ix2 p k) = V c main_v28 (ix2 r k) := by
  obtain ⟨-, -, e0, e1, -⟩ := idx1 t
  show V c main_v28 (((cfg1.win 1).blk t).view.emb (ix2 p k)) = V c main_v28 (ix2 r k)
  refine congrArg (V c main_v28) ?_
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- The first weight matrix is staged whole at every point. -/
theorem blk1_2 (c : Dev nD) (t : Fin cfg1.N) (k : Fin 64) (j : Fin 10) :
    iblk1 V c 2 t (ix2 k j) = V c main_v42 (ix2 k j) := by
  obtain ⟨-, -, -, -, e0, e1, -⟩ := idx1 t
  show V c main_v42 (((cfg1.win 2).blk t).view.emb (ix2 k j)) = V c main_v42 (ix2 k j)
  refine congrArg (V c main_v42) ?_
  funext a; apply Fin.ext
  match a with
  | ⟨0, _⟩ => show win1_2.index t (0 : Fin 2) * 64 + 1 * k.val = k.val; omega
  | ⟨1, _⟩ => show win1_2.index t (1 : Fin 2) * 10 + 1 * j.val = j.val; omega

/-- The bias row is staged whole at every point. -/
theorem blk1_3 (c : Dev nD) (t : Fin cfg1.N) (u : Fin 1) (j : Fin 10) :
    iblk1 V c 3 t (ix2 u j) = V c main_v44 (ix2 u j) := by
  obtain ⟨-, -, -, -, -, -, e0, e1, -⟩ := idx1 t
  show V c main_v44 (((cfg1.win 3).blk t).view.emb (ix2 u j)) = V c main_v44 (ix2 u j)
  refine congrArg (V c main_v44) ?_
  funext a; apply Fin.ext
  match a with
  | ⟨0, _⟩ => show win1_3.index t (0 : Fin 2) * 1 + 1 * u.val = u.val; omega
  | ⟨1, _⟩ => show win1_3.index t (1 : Fin 2) * 10 + 1 * j.val = j.val; omega

/-- The second weight matrix is staged whole at every point. -/
theorem blk1_4 (c : Dev nD) (t : Fin cfg1.N) (k : Fin 64) (j : Fin 10) :
    iblk1 V c 4 t (ix2 k j) = V c main_v43 (ix2 k j) := by
  obtain ⟨-, -, -, -, -, -, -, -, e0, e1, -⟩ := idx1 t
  show V c main_v43 (((cfg1.win 4).blk t).view.emb (ix2 k j)) = V c main_v43 (ix2 k j)
  refine congrArg (V c main_v43) ?_
  funext a; apply Fin.ext
  match a with
  | ⟨0, _⟩ => show win1_4.index t (0 : Fin 2) * 64 + 1 * k.val = k.val; omega
  | ⟨1, _⟩ => show win1_4.index t (1 : Fin 2) * 10 + 1 * j.val = j.val; omega

/-- The layer's array function of the arrays the region finds. -/
abbrev G1 (c : Dev nD) : S50000x10.Idx → EReal :=
  Cert.Sage.layer2K (V c main_v41) (V c main_v28) (V c main_v42) (V c main_v43) (V c main_v44)

/-- What point t writes back is block t of the layer's array function. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x10) hz, View.ld_unit_zero (S := S1x10) hz]
  obtain ⟨-, -, -, -, -, -, -, -, -, -, e0, e1, ht⟩ := idx1 t
  funext y
  obtain ⟨p, q, rfl⟩ : ∃ (p : Fin 5000) (q : Fin 10), y = ix2 p q := ⟨y 0, y 1, eq_ix2 y⟩
  have hr : t.val * 5000 + p.val < 50000 := by have := p.isLt; omega
  have hemb : ((cfg1.win 5).blk t).view.emb (ix2 p q) = ix2 (⟨t.val * 5000 + p.val, hr⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 10 + 1 * q.val = q.val; omega
  show k1_pay1 (F := Ideal) (iblk1 V c 0 t) (iblk1 V c 1 t) (iblk1 V c 2 t) (iblk1 V c 4 t) (iblk1 V c 3 t) (ix2 p q)
      = G1 V c (((cfg1.win 5).blk t).view.emb (ix2 p q))
  rw [hemb, KPay.pay1_apply]
  show _ = Cert.Sage.lsmK (Cert.Sage.unit (Cert.Sage.preK (Cert.Sage.rowOf (V c main_v41) ⟨t.val * 5000 + p.val, hr⟩)
      (Cert.Sage.rowOf (V c main_v28) ⟨t.val * 5000 + p.val, hr⟩) (Cert.Sage.mat (V c main_v42)) (Cert.Sage.mat (V c main_v43))
      (Cert.Sage.rowOf (V c main_v44) 0))) q
  have h0 : (fun k => iblk1 V c 0 t (ix2 p k)) = Cert.Sage.rowOf (V c main_v41) ⟨t.val * 5000 + p.val, hr⟩ :=
    funext fun k => blk1_0 V c t p k _ rfl
  have h1 : (fun k => iblk1 V c 1 t (ix2 p k)) = Cert.Sage.rowOf (V c main_v28) ⟨t.val * 5000 + p.val, hr⟩ :=
    funext fun k => blk1_1 V c t p k _ rfl
  have h2 : (fun k j => iblk1 V c 2 t (ix2 k j)) = Cert.Sage.mat (V c main_v42) :=
    funext fun k => funext fun j => blk1_2 V c t k j
  have h4 : (fun k j => iblk1 V c 4 t (ix2 k j)) = Cert.Sage.mat (V c main_v43) :=
    funext fun k => funext fun j => blk1_4 V c t k j
  have h3 : (fun j => iblk1 V c 3 t (ix2 0 j)) = Cert.Sage.rowOf (V c main_v44) 0 :=
    funext fun j => blk1_3 V c t 0 j
  rw [h0, h1, h2, h4, h3]

/-- An index of the output array is in point t's block iff each coordinate is in the block's range on its axis. -/
theorem mem_blk1 (t : Fin cfg1.N) (i : S50000x10.Idx) :
    i ∈ ((cfg1.win 5).blk t).view.set ↔ ∀ a : Fin 2, win1_5.index t a * S5000x10.size a ≤ (i a).val ∧ (i a).val < win1_5.index t a * S5000x10.size a + S5000x10.size a := by
  show i ∈ ((View.whole main_v45).slice (win1_5.rect t)).set ↔ _
  rw [View.set_slice_whole, Rect.mem_set_unit]
  exact Iff.rfl

/-- Every index of the output array is in some point's block: the point of its row's five-thousand. -/
theorem cover1 (i : S50000x10.Idx) : ∃ t : Fin cfg1.N, (cfg1.win 5).flush t = true ∧ i ∈ ((cfg1.win 5).blk t).view.set := by
  have hi0 : (i 0).val < 50000 := (i 0).isLt
  have hi1 : (i 1).val < 10 := (i 1).isLt
  have hN : cfg1.N = 10 := N_1
  refine ⟨⟨(i 0).val / 5000, by rw [hN]; omega⟩, flush1_5 _, ?_⟩
  rw [mem_blk1]
  obtain ⟨-, -, -, -, -, -, -, -, -, -, e0, e1, -⟩ := idx1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000
    omega
  | ⟨1, _⟩ =>
    show win1_5.index _ (1 : Fin 2) * 10 ≤ (i 1).val ∧ (i 1).val < win1_5.index _ (1 : Fin 2) * 10 + 10
    rw [e1]; omega

/-- The region's output array ends holding the layer's array function of the arrays the region finds. -/
theorem final1 (c : Dev nD) : (dat1 V c).arrAt 5 cfg1.N = G1 V c :=
  (dat1 V c).arrAt_eq_of_cover 5 (G1 V c) (fun t _ => flushed1_eq V c t) (cover1)

end Cert.KernelIdeal.KBlocks

end
-- ==== Proof.KHost.lean ====
/-
  The kernel program's two stretches of host operations, as functions of the buffers they start from.

  The first stretch computes, from the features and the edge list, the mean in its product form (the aggregate times the
  reciprocal of the clipped count) and lays the first layer's weights out transposed and its bias as a row; it also
  leaves the sources, the destinations and the reciprocal of the clipped count in buffers the second stretch reads.
  The second stretch does the same from the first region's output, for the second layer.
-/
import proofs.«108602_j31894427140226_1_alg».proof.Proof.Gen.KernelIdeal.Launch
import proofs.«108602_j31894427140226_1_alg».proof.Proof.Spec
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (D : Cert.Sage.Dims) (hg : D.g = gather_S50000x64_S1250000x1_S1250000x64_1_0_n_n_0_1_164)
  (h2 : D.d2 = scatter_S50000x64_S1250000x1_S1250000x64_1_0_0_1) (h1 : D.d1 = scatter_S50000_S1250000x1_S1250000_n_0_0_1)
variable (V : Valuation τ sig (Elt F))

/-- The reciprocal of the clipped count, as the first stretch leaves it. -/
def inv (D : Cert.Sage.Dims) (dst : IVec Cert.Sage.S1250000 32) : FVec F Cert.Sage.S50000 .f32 :=
  Host.divf (broadcastInDim Cert.Sage.S50000 ![] (by decide) (constant Cert.Sage.S_ .f32 0x3F800000#32)) (Cert.Sage.cmax (F := F) D dst)

/-- The mean in its product form is the aggregate times the spread reciprocal. -/
theorem meanK_eq (x : FVec F Cert.Sage.S50000x64 .f32) (src dst : IVec Cert.Sage.S1250000 32) :
    Cert.Sage.meanK D x src dst = mulf (Cert.Sage.agg D x src dst) (Cert.Sage.spread (inv (F := F) D dst)) := rfl

/-! ## The first stretch -/

set_option maxRecDepth 8192 in
set_option maxHeartbeats 4000000 in
/-- The sources. -/
theorem s0_src : after (hostOps0 (F := F)) V (Proc.devRef .tc main_v1) = Cert.Sage.srcOf (V (Proc.devRef .tc main_arg1)) := by
  after_results_simp <;> rfl

set_option maxRecDepth 8192 in
set_option maxHeartbeats 4000000 in
/-- The destinations. -/
theorem s0_dst : after (hostOps0 (F := F)) V (Proc.devRef .tc main_v3) = Cert.Sage.dstOf (V (Proc.devRef .tc main_arg1)) := by
  after_results_simp <;> rfl

include h1 in
set_option maxRecDepth 8192 in
set_option maxHeartbeats 4000000 in
/-- The reciprocal of the clipped count. -/
theorem s0_inv : after (hostOps0 (F := F)) V (Proc.devRef .tc main_v11)
    = inv (F := F) D (Cert.Sage.dstOf (V (Proc.devRef .tc main_arg1))) := by
  after_results_simp
  unfold inv Cert.Sage.cmax Cert.Sage.cnt
  rw [h1]
  rfl

include hg h2 h1 in
set_option maxRecDepth 8192 in
set_option maxHeartbeats 4000000 in
/-- The mean of the features, in its product form. -/
theorem s0_mean : after (hostOps0 (F := F)) V (Proc.devRef .tc main_v24)
    = Cert.Sage.meanK D (V (Proc.devRef .tc main_arg0)) (Cert.Sage.srcOf (V (Proc.devRef .tc main_arg1)))
        (Cert.Sage.dstOf (V (Proc.devRef .tc main_arg1))) := by
  after_results_simp
  unfold Cert.Sage.meanK Cert.Sage.agg Cert.Sage.cmax Cert.Sage.cnt
  rw [hg, h2, h1]
  rfl

set_option maxRecDepth 8192 in
set_option maxHeartbeats 4000000 in
/-- The first layer's weights transposed, and its bias as a row. -/
theorem s0_wl : after (hostOps0 (F := F)) V (Proc.devRef .tc main_v25)
    = transpose Cert.Sage.S64x64 [1, 0] (V (Proc.devRef .tc main_arg2)) (by decide) := by
  after_results_simp <;> rfl
set_option maxRecDepth 8192 in
set_option maxHeartbeats 4000000 in
theorem s0_wr : after (hostOps0 (F := F)) V (Proc.devRef .tc main_v26)
    = transpose Cert.Sage.S64x64 [1, 0] (V (Proc.devRef .tc main_arg4)) (by decide) := by
  after_results_simp <;> rfl
set_option maxRecDepth 8192 in
set_option maxHeartbeats 4000000 in
theorem s0_b : after (hostOps0 (F := F)) V (Proc.devRef .tc main_v27)
    = shapeCast Cert.Sage.S1x64 (V (Proc.devRef .tc main_arg3)) (by decide) := by
  after_results_simp <;> rfl

set_option maxRecDepth 8192 in
set_option maxHeartbeats 4000000 in
/-- The stretch writes no argument. -/
theorem s0_arg0 : after (hostOps0 (F := F)) V (Proc.devRef .tc main_arg0) = V (Proc.devRef .tc main_arg0) := by
  after_results_simp <;> rfl
set_option maxRecDepth 8192 in
set_option maxHeartbeats 4000000 in
theorem s0_arg1 : after (hostOps0 (F := F)) V (Proc.devRef .tc main_arg1) = V (Proc.devRef .tc main_arg1) := by
  after_results_simp <;> rfl
set_option maxRecDepth 8192 in
set_option maxHeartbeats 4000000 in
theorem s0_arg2 : after (hostOps0 (F := F)) V (Proc.devRef .tc main_arg2) = V (Proc.devRef .tc main_arg2) := by
  after_results_simp <;> rfl
set_option maxRecDepth 8192 in
set_option maxHeartbeats 4000000 in
theorem s0_arg3 : after (hostOps0 (F := F)) V (Proc.devRef .tc main_arg3) = V (Proc.devRef .tc main_arg3) := by
  after_results_simp <;> rfl
set_option maxRecDepth 8192 in
set_option maxHeartbeats 4000000 in
theorem s0_arg4 : after (hostOps0 (F := F)) V (Proc.devRef .tc main_arg4) = V (Proc.devRef .tc main_arg4) := by
  after_results_simp <;> rfl
set_option maxRecDepth 8192 in
set_option maxHeartbeats 4000000 in
theorem s0_arg5 : after (hostOps0 (F := F)) V (Proc.devRef .tc main_arg5) = V (Proc.devRef .tc main_arg5) := by
  after_results_simp <;> rfl
set_option maxRecDepth 8192 in
set_option maxHeartbeats 4000000 in
theorem s0_arg6 : after (hostOps0 (F := F)) V (Proc.devRef .tc main_arg6) = V (Proc.devRef .tc main_arg6) := by
  after_results_simp <;> rfl
set_option maxRecDepth 8192 in
set_option maxHeartbeats 4000000 in
theorem s0_arg7 : after (hostOps0 (F := F)) V (Proc.devRef .tc main_arg7) = V (Proc.devRef .tc main_arg7) := by
  after_results_simp <;> rfl

/-! ## The second stretch -/

include hg h2 in
set_option maxRecDepth 8192 in
set_option maxHeartbeats 4000000 in
/-- The mean of the first layer's output, in its product form, from the buffers the first stretch left. -/
theorem s1_mean : after (hostOps1 (F := F)) V (Proc.devRef .tc main_v41)
    = mulf (Cert.Sage.agg D (V (Proc.devRef .tc main_v28)) (V (Proc.devRef .tc main_v1)) (V (Proc.devRef .tc main_v3)))
        (Cert.Sage.spread (V (Proc.devRef .tc main_v11))) := by
  after_results_simp
  unfold Cert.Sage.agg Cert.Sage.spread
  rw [hg, h2]
  rfl

set_option maxRecDepth 8192 in
set_option maxHeartbeats 4000000 in
/-- The stretch does not write the first region's output. -/
theorem s1_x : after (hostOps1 (F := F)) V (Proc.devRef .tc main_v28) = V (Proc.devRef .tc main_v28) := by
  after_results_simp <;> rfl

set_option maxRecDepth 8192 in
set_option maxHeartbeats 4000000 in
/-- The second layer's weights transposed, and its bias as a row. -/
theorem s1_wl : after (hostOps1 (F := F)) V (Proc.devRef .tc main_v42)
    = transpose Cert.Sage.S64x10 [1, 0] (V (Proc.devRef .tc main_arg5)) (by decide) := by
  after_results_simp <;> rfl
set_option maxRecDepth 8192 in
set_option maxHeartbeats 4000000 in
theorem s1_wr : after (hostOps1 (F := F)) V (Proc.devRef .tc main_v43)
    = transpose Cert.Sage.S64x10 [1, 0] (V (Proc.devRef .tc main_arg7)) (by decide) := by
  after_results_simp <;> rfl
set_option maxRecDepth 8192 in
set_option maxHeartbeats 4000000 in
theorem s1_b : after (hostOps1 (F := F)) V (Proc.devRef .tc main_v44)
    = shapeCast Cert.Sage.S1x10 (V (Proc.devRef .tc main_arg6)) (by decide) := by
  after_results_simp <;> rfl

end Cert.KernelIdeal.KHost

end
-- ==== Proof.KOut.lean ====
/-
  The kernel program's result, as a function of its arguments: the contents of the result buffer at the last boundary of
  @main are the network's output in the kernel's arrangement.

  Reading back from the end: the result array is the second region's output, which is the second layer of the arrays that
  region finds; those are what the second stretch of host operations leaves — the mean (product form) of the first
  region's output, that output itself, and the second layer's weights and bias laid out for the region —; the first
  region's output is the first layer of what the first stretch leaves, which is the mean (product form) of the
  features, the features, and the first layer's weights and bias laid out for the region.
-/
import proofs.«108602_j31894427140226_1_alg».proof.Proof.Gen.KernelIdeal.Frame
import proofs.«108602_j31894427140226_1_alg».proof.Proof.KBlocks
import proofs.«108602_j31894427140226_1_alg».proof.Proof.KHost
import proofs.«108602_j31894427140226_1_alg».proof.Proof.Spec

set_option maxRecDepth 16384

noncomputable section

namespace Cert.KernelIdeal.KOut

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)
variable (D : Cert.Sage.Dims) (hg : D.g = gather_S50000x64_S1250000x1_S1250000x64_1_0_n_n_0_1_164)
  (h2 : D.d2 = scatter_S50000x64_S1250000x1_S1250000x64_1_0_0_1) (h1 : D.d1 = scatter_S50000_S1250000x1_S1250000_n_0_0_1)

/-- The first layer's output, of the launch memory's arguments. -/
abbrev x1 (c : Dev nD) : FVec Ideal Cert.Sage.S50000x64 .f32 :=
  Cert.Sage.x1K D (m ((c : Thread nD τ).loc main_arg0)) (m ((c : Thread nD τ).loc main_arg1)) (m ((c : Thread nD τ).loc main_arg2))
    (m ((c : Thread nD τ).loc main_arg3)) (m ((c : Thread nD τ).loc main_arg4))

include hg h2 h1 in
/-- After the first region its output array holds the first layer's output. -/
theorem region0_out (c : Dev nD) : W2 m ρ c (Proc.devRef .tc main_v28) = x1 m D c := by
  refine (W2_arr m ρ c 5).trans ((KBlocks.final0 (V1 m ρ) c).trans ?_)
  show Cert.Sage.layer1K (after hostOps0 (W0 m ρ c) (Proc.devRef .tc main_v24)) (after hostOps0 (W0 m ρ c) (Proc.devRef .tc main_arg0))
      (after hostOps0 (W0 m ρ c) (Proc.devRef .tc main_v25)) (after hostOps0 (W0 m ρ c) (Proc.devRef .tc main_v26))
      (after hostOps0 (W0 m ρ c) (Proc.devRef .tc main_v27)) = _
  rw [KHost.s0_mean D hg h2 h1 (W0 m ρ c), KHost.s0_arg0 (W0 m ρ c), KHost.s0_wl (W0 m ρ c), KHost.s0_wr (W0 m ρ c),
    KHost.s0_b (W0 m ρ c)]
  rfl

/-- The first region leaves every buffer that is not one of its arrays as it found it. -/
theorem keep_src (c : Dev nD) : W2 m ρ c (Proc.devRef .tc main_v1) = Cert.Sage.srcOf (m ((c : Thread nD τ).loc main_arg1)) :=
  (W2_of_ne m ρ c main_v1 (by decide)).trans (KHost.s0_src (W0 m ρ c))
theorem keep_dst (c : Dev nD) : W2 m ρ c (Proc.devRef .tc main_v3) = Cert.Sage.dstOf (m ((c : Thread nD τ).loc main_arg1)) :=
  (W2_of_ne m ρ c main_v3 (by decide)).trans (KHost.s0_dst (W0 m ρ c))
include h1 in
theorem keep_inv (c : Dev nD) : W2 m ρ c (Proc.devRef .tc main_v11)
    = KHost.inv (F := Ideal) D (Cert.Sage.dstOf (m ((c : Thread nD τ).loc main_arg1))) :=
  (W2_of_ne m ρ c main_v11 (by decide)).trans (KHost.s0_inv D h1 (W0 m ρ c))
theorem keep_arg5 (c : Dev nD) : W2 m ρ c (Proc.devRef .tc main_arg5) = m ((c : Thread nD τ).loc main_arg5) :=
  (W2_of_ne m ρ c main_arg5 (by decide)).trans (KHost.s0_arg5 (W0 m ρ c))
theorem keep_arg6 (c : Dev nD) : W2 m ρ c (Proc.devRef .tc main_arg6) = m ((c : Thread nD τ).loc main_arg6) :=
  (W2_of_ne m ρ c main_arg6 (by decide)).trans (KHost.s0_arg6 (W0 m ρ c))
theorem keep_arg7 (c : Dev nD) : W2 m ρ c (Proc.devRef .tc main_arg7) = m ((c : Thread nD τ).loc main_arg7) :=
  (W2_of_ne m ρ c main_arg7 (by decide)).trans (KHost.s0_arg7 (W0 m ρ c))

include hg h2 h1 in
/-- At the last boundary the result buffer holds the network's output, in the kernel's arrangement, of the arguments as
    launched. -/
theorem result (c : Dev nD) : W4 m ρ c (Proc.devRef .tc main_v45)
    = Cert.Sage.outK D (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ((KBlocks.final1 (V3 m ρ) c).trans ?_)
  show Cert.Sage.layer2K (after hostOps1 (W2 m ρ c) (Proc.devRef .tc main_v41)) (after hostOps1 (W2 m ρ c) (Proc.devRef .tc main_v28))
      (after hostOps1 (W2 m ρ c) (Proc.devRef .tc main_v42)) (after hostOps1 (W2 m ρ c) (Proc.devRef .tc main_v43))
      (after hostOps1 (W2 m ρ c) (Proc.devRef .tc main_v44)) = _
  rw [KHost.s1_mean D hg h2 (W2 m ρ c), KHost.s1_x (W2 m ρ c), KHost.s1_wl (W2 m ρ c), KHost.s1_wr (W2 m ρ c), KHost.s1_b (W2 m ρ c),
    region0_out m ρ D hg h2 h1 c, keep_src m ρ c, keep_dst m ρ c, keep_inv m ρ D h1 c, keep_arg5 m ρ c, keep_arg6 m ρ c, keep_arg7 m ρ c,
    ← KHost.meanK_eq]
  rfl

end Cert.KernelIdeal.KOut

end
-- ==== Proof.RefRun.lean ====
/-
  The reference program's run with its result named: the network's output in the host spelling, of the argument arrays.
-/
import proofs.«108602_j31894427140226_1_alg».proof.Proof.RefOps
import proofs.«108602_j31894427140226_1_alg».proof.Proof.Spec
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's dimension numbers. -/
def dims : Cert.Sage.Dims where
  g := gather_S50000x64_S1250000x1_S1250000x64_1_0_n_n_0_1_164
  d2 := scatter_S50000x64_S1250000x1_S1250000x64_1_0_0_1
  d1 := scatter_S50000_S1250000x1_S1250000_n_0_0_1
  dA := dot_S50000x64_S64x64_S50000x64_1_0_0_1_n_n
  dB := dot_S50000x64_S64x10_S50000x10_1_0_0_1_n_n

theorem dims_ok : dims.Ok := by
  constructor <;> rfl

/-! ## The operations in four stretches

The first ends at the first layer's output, the second at the second layer's pre-activation, the third at its unit rows,
the last at the log-softmax. Each stretch's fold, at the one buffer the next stretch reads, is a stage of the network in
the host spelling, of the contents the stretch started from. -/

abbrev opsA : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_c (constantI S_ 32 0#32),
    unary main_c main_v4 (broadcastInDim S1250000 ![] bcast_S_S1250000 : (⟨S_, .i32⟩ : BufTy).Contents (Elt F) → (⟨S1250000, .i32⟩ : BufTy).Contents (Elt F)),
    binary main_v1 main_v4 main_v5 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 50000#32),
    unary main_c_0 main_v6 (broadcastInDim S1250000 ![] bcast_S_S1250000 : (⟨S_, .i32⟩ : BufTy).Contents (Elt F) → (⟨S1250000, .i32⟩ : BufTy).Contents (Elt F)),
    binary main_v1 main_v6 main_v7 (addi : (⟨S1250000, .i32⟩ : BufTy).Contents (Elt F) → (⟨S1250000, .i32⟩ : BufTy).Contents (Elt F) → (⟨S1250000, .i32⟩ : BufTy).Contents (Elt F)),
    ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v8 main_v9 (broadcastInDim S1250000x1 ![0] bcast_S1250000_S1250000x1_0 : (⟨S1250000, .i32⟩ : BufTy).Contents (Elt F) → (⟨S1250000x1, .i32⟩ : BufTy).Contents (Elt F)),
    binary main_arg0 main_v9 main_v10 ((fun x i => Host.gather gather_S50000x64_S1250000x1_S1250000x64_1_0_n_n_0_1_164 x i) : (⟨S50000x64, .f32⟩ : BufTy).Contents (Elt F) → (⟨S1250000x1, .i32⟩ : BufTy).Contents (Elt F) → (⟨S1250000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S1250000x1 ![0] bcast_S1250000_S1250000x1_0 : (⟨S1250000, .i32⟩ : BufTy).Contents (Elt F) → (⟨S1250000x1, .i32⟩ : BufTy).Contents (Elt F)),
    ternary main_v11 main_v12 main_v10 main_v13 ((fun x i u => Host.scatterAdd scatter_S50000x64_S1250000x1_S1250000x64_1_0_0_1 x i u) : (⟨S50000x64, .f32⟩ : BufTy).Contents (Elt F) → (⟨S1250000x1, .i32⟩ : BufTy).Contents (Elt F) → (⟨S1250000x64, .f32⟩ : BufTy).Contents (Elt F) → (⟨S50000x64, .f32⟩ : BufTy).Contents (Elt F)),
    nullary main_cst_1 (constant S_ .f32 0x3F800000#32),
    unary main_cst_1 main_v14 (broadcastInDim S1250000 ![] bcast_S_S1250000 : (⟨S_, .f32⟩ : BufTy).Contents (Elt F) → (⟨S1250000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S1250000x1 ![0] bcast_S1250000_S1250000x1_0 : (⟨S1250000, .i32⟩ : BufTy).Contents (Elt F) → (⟨S1250000x1, .i32⟩ : BufTy).Contents (Elt F)),
    ternary main_v15 main_v16 main_v14 main_v17 ((fun x i u => Host.scatterAdd scatter_S50000_S1250000x1_S1250000_n_0_0_1 x i u) : (⟨S50000, .f32⟩ : BufTy).Contents (Elt F) → (⟨S1250000x1, .i32⟩ : BufTy).Contents (Elt F) → (⟨S1250000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x64 ![0, 1] bcast_S50000x1_S50000x64_0_1 : (⟨S50000x1, .f32⟩ : BufTy).Contents (Elt F) → (⟨S50000x64, .f32⟩ : BufTy).Contents (Elt F)),
    binary main_v13 main_v21 main_v22 (Host.divf : (⟨S50000x64, .f32⟩ : BufTy).Contents (Elt F) → (⟨S50000x64, .f32⟩ : BufTy).Contents (Elt F) → (⟨S50000x64, .f32⟩ : BufTy).Contents (Elt F)),
    unary main_arg2 main_v23 ((transpose S64x64 [1, 0] · transposes_S64x64_S64x64_1_0) : (⟨S64x64, .f32⟩ : BufTy).Contents (Elt F) → (⟨S64x64, .f32⟩ : BufTy).Contents (Elt F)),
    binary main_v22 main_v23 main_v24 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v25 (broadcastInDim S1x64 ![1] bcast_S64_S1x64_1 : (⟨S64, .f32⟩ : BufTy).Contents (Elt F) → (⟨S1x64, .f32⟩ : BufTy).Contents (Elt F)),
    unary main_v25 main_v26 (broadcastInDim S50000x64 ![0, 1] bcast_S1x64_S50000x64_0_1 : (⟨S1x64, .f32⟩ : BufTy).Contents (Elt F) → (⟨S50000x64, .f32⟩ : BufTy).Contents (Elt F)),
    binary main_v24 main_v26 main_v27 (addf : (⟨S50000x64, .f32⟩ : BufTy).Contents (Elt F) → (⟨S50000x64, .f32⟩ : BufTy).Contents (Elt F) → (⟨S50000x64, .f32⟩ : BufTy).Contents (Elt F)),
    unary main_arg4 main_v28 ((transpose S64x64 [1, 0] · transposes_S64x64_S64x64_1_0) : (⟨S64x64, .f32⟩ : BufTy).Contents (Elt F) → (⟨S64x64, .f32⟩ : BufTy).Contents (Elt F)),
    binary main_arg0 main_v28 main_v29 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v27 main_v29 main_v30 (addf : (⟨S50000x64, .f32⟩ : BufTy).Contents (Elt F) → (⟨S50000x64, .f32⟩ : BufTy).Contents (Elt F) → (⟨S50000x64, .f32⟩ : BufTy).Contents (Elt F)),
    TRef.binary (TRef.of (T := ⟨S50000x64, .f32⟩) main_v30) (TRef.of (T := ⟨S50000x64, .f32⟩) main_v30) (TRef.of (T := ⟨S50000x64, .f32⟩) main_call0_v0) mulf,
    TRef.nullary (TRef.of (T := ⟨S_, .f32⟩) main_call0_cst) (constant S_ .f32 0x00000000#32),
    TRef.binary (TRef.of (T := ⟨S50000x64, .f32⟩) main_call0_v0) (TRef.of (T := ⟨S_, .f32⟩) main_call0_cst) (TRef.of (T := ⟨S50000, .f32⟩) main_call0_v1) (fun x v => Host.reduceAdd x v reducesTo_S50000x64_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v31) Host.sqrt,
    nullary main_cst_4 (constant S_ .f32 0x2B8CBCCC#32),
    unary main_cst_4 main_v32 (broadcastInDim S50000x1 ![] bcast_S_S50000x1 : (⟨S_, .f32⟩ : BufTy).Contents (Elt F) → (⟨S50000x1, .f32⟩ : BufTy).Contents (Elt F)),
    binary main_v31 main_v32 main_v33 (maximumf : (⟨S50000x1, .f32⟩ : BufTy).Contents (Elt F) → (⟨S50000x1, .f32⟩ : BufTy).Contents (Elt F) → (⟨S50000x1, .f32⟩ : BufTy).Contents (Elt F)),
    unary main_v33 main_v34 (broadcastInDim S50000x64 ![0, 1] bcast_S50000x1_S50000x64_0_1 : (⟨S50000x1, .f32⟩ : BufTy).Contents (Elt F) → (⟨S50000x64, .f32⟩ : BufTy).Contents (Elt F)),
    binary main_v30 main_v34 main_v35 (Host.divf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v35) (TRef.of (T := ⟨S50000x64, .f32⟩) main_call1_v0) (TRef.of (T := ⟨S50000x64, .f32⟩) main_v36) maximumf ]

abbrev opsB1 : List (HloOp τ sig (Elt F)) :=
  [ nullary main_c_5 (constantI S_ 32 0#32),
    unary main_c_5 main_v37 (broadcastInDim S1250000 ![] bcast_S_S1250000 : (⟨S_, .i32⟩ : BufTy).Contents (Elt F) → (⟨S1250000, .i32⟩ : BufTy).Contents (Elt F)),
    binary main_v1 main_v37 main_v38 (cmpi .slt : (⟨S1250000, .i32⟩ : BufTy).Contents (Elt F) → (⟨S1250000, .i32⟩ : BufTy).Contents (Elt F) → (⟨S1250000, .i1⟩ : BufTy).Contents (Elt F)),
    nullary main_c_6 (constantI S_ 32 50000#32),
    unary main_c_6 main_v39 (broadcastInDim S1250000 ![] bcast_S_S1250000 : (⟨S_, .i32⟩ : BufTy).Contents (Elt F) → (⟨S1250000, .i32⟩ : BufTy).Contents (Elt F)),
    binary main_v1 main_v39 main_v40 (addi : (⟨S1250000, .i32⟩ : BufTy).Contents (Elt F) → (⟨S1250000, .i32⟩ : BufTy).Contents (Elt F) → (⟨S1250000, .i32⟩ : BufTy).Contents (Elt F)),
    ternary main_v38 main_v40 main_v1 main_v41 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v41 main_v42 (broadcastInDim S1250000x1 ![0] bcast_S1250000_S1250000x1_0 : (⟨S1250000, .i32⟩ : BufTy).Contents (Elt F) → (⟨S1250000x1, .i32⟩ : BufTy).Contents (Elt F)),
    binary main_v36 main_v42 main_v43 ((fun x i => Host.gather gather_S50000x64_S1250000x1_S1250000x64_1_0_n_n_0_1_164 x i) : (⟨S50000x64, .f32⟩ : BufTy).Contents (Elt F) → (⟨S1250000x1, .i32⟩ : BufTy).Contents (Elt F) → (⟨S1250000x64, .f32⟩ : BufTy).Contents (Elt F)),
    nullary main_cst_7 (constant S_ .f32 0x00000000#32),
    unary main_cst_7 main_v44 (broadcastInDim S50000x64 ![] bcast_S_S50000x64 : (⟨S_, .f32⟩ : BufTy).Contents (Elt F) → (⟨S50000x64, .f32⟩ : BufTy).Contents (Elt F)),
    unary main_v3 main_v45 (broadcastInDim S1250000x1 ![0] bcast_S1250000_S1250000x1_0 : (⟨S1250000, .i32⟩ : BufTy).Contents (Elt F) → (⟨S1250000x1, .i32⟩ : BufTy).Contents (Elt F)),
    ternary main_v44 main_v45 main_v43 main_v46 ((fun x i u => Host.scatterAdd scatter_S50000x64_S1250000x1_S1250000x64_1_0_0_1 x i u) : (⟨S50000x64, .f32⟩ : BufTy).Contents (Elt F) → (⟨S1250000x1, .i32⟩ : BufTy).Contents (Elt F) → (⟨S1250000x64, .f32⟩ : BufTy).Contents (Elt F) → (⟨S50000x64, .f32⟩ : BufTy).Contents (Elt F)),
    nullary main_cst_8 (constant S_ .f32 0x3F800000#32),
    unary main_cst_8 main_v47 (broadcastInDim S1250000 ![] bcast_S_S1250000 : (⟨S_, .f32⟩ : BufTy).Contents (Elt F) → (⟨S1250000, .f32⟩ : BufTy).Contents (Elt F)),
    nullary main_cst_9 (constant S_ .f32 0x00000000#32),
    unary main_cst_9 main_v48 (broadcastInDim S50000 ![] bcast_S_S50000 : (⟨S_, .f32⟩ : BufTy).Contents (Elt F) → (⟨S50000, .f32⟩ : BufTy).Contents (Elt F)),
    unary main_v3 main_v49 (broadcastInDim S1250000x1 ![0] bcast_S1250000_S1250000x1_0 : (⟨S1250000, .i32⟩ : BufTy).Contents (Elt F) → (⟨S1250000x1, .i32⟩ : BufTy).Contents (Elt F)),
    ternary main_v48 main_v49 main_v47 main_v50 ((fun x i u => Host.scatterAdd scatter_S50000_S1250000x1_S1250000_n_0_0_1 x i u) : (⟨S50000, .f32⟩ : BufTy).Contents (Elt F) → (⟨S1250000x1, .i32⟩ : BufTy).Contents (Elt F) → (⟨S1250000, .f32⟩ : BufTy).Contents (Elt F) → (⟨S50000, .f32⟩ : BufTy).Contents (Elt F)),
    nullary main_cst_10 (constant S_ .f32 0x3F800000#32),
    unary main_cst_10 main_v51 (broadcastInDim S50000 ![] bcast_S_S50000 : (⟨S_, .f32⟩ : BufTy).Contents (Elt F) → (⟨S50000, .f32⟩ : BufTy).Contents (Elt F)),
    binary main_v50 main_v51 main_v52 (maximumf : (⟨S50000, .f32⟩ : BufTy).Contents (Elt F) → (⟨S50000, .f32⟩ : BufTy).Contents (Elt F) → (⟨S50000, .f32⟩ : BufTy).Contents (Elt F)),
    unary main_v52 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x64 ![0, 1] bcast_S50000x1_S50000x64_0_1 : (⟨S50000x1, .f32⟩ : BufTy).Contents (Elt F) → (⟨S50000x64, .f32⟩ : BufTy).Contents (Elt F)),
    binary main_v46 main_v54 main_v55 (Host.divf : (⟨S50000x64, .f32⟩ : BufTy).Contents (Elt F) → (⟨S50000x64, .f32⟩ : BufTy).Contents (Elt F) → (⟨S50000x64, .f32⟩ : BufTy).Contents (Elt F)),
    unary main_arg5 main_v56 ((transpose S64x10 [1, 0] · transposes_S10x64_S64x10_1_0) : (⟨S10x64, .f32⟩ : BufTy).Contents (Elt F) → (⟨S64x10, .f32⟩ : BufTy).Contents (Elt F)),
    binary main_v55 main_v56 main_v57 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    unary main_arg6 main_v58 (broadcastInDim S1x10 ![1] bcast_S10_S1x10_1 : (⟨S10, .f32⟩ : BufTy).Contents (Elt F) → (⟨S1x10, .f32⟩ : BufTy).Contents (Elt F)),
    unary main_v58 main_v59 (broadcastInDim S50000x10 ![0, 1] bcast_S1x10_S50000x10_0_1 : (⟨S1x10, .f32⟩ : BufTy).Contents (Elt F) → (⟨S50000x10, .f32⟩ : BufTy).Contents (Elt F)),
    binary main_v57 main_v59 main_v60 (addf : (⟨S50000x10, .f32⟩ : BufTy).Contents (Elt F) → (⟨S50000x10, .f32⟩ : BufTy).Contents (Elt F) → (⟨S50000x10, .f32⟩ : BufTy).Contents (Elt F)),
    unary main_arg7 main_v61 ((transpose S64x10 [1, 0] · transposes_S10x64_S64x10_1_0) : (⟨S10x64, .f32⟩ : BufTy).Contents (Elt F) → (⟨S64x10, .f32⟩ : BufTy).Contents (Elt F)),
    binary main_v36 main_v61 main_v62 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v60 main_v62 main_v63 (addf : (⟨S50000x10, .f32⟩ : BufTy).Contents (Elt F) → (⟨S50000x10, .f32⟩ : BufTy).Contents (Elt F) → (⟨S50000x10, .f32⟩ : BufTy).Contents (Elt F)) ]

abbrev opsB2 : List (HloOp τ sig (Elt F)) :=
  [ TRef.binary (TRef.of (T := ⟨S50000x10, .f32⟩) main_v63) (TRef.of (T := ⟨S50000x10, .f32⟩) main_v63) (TRef.of (T := ⟨S50000x10, .f32⟩) main_call2_v0) mulf,
    TRef.nullary (TRef.of (T := ⟨S_, .f32⟩) main_call2_cst) (constant S_ .f32 0x00000000#32),
    TRef.binary (TRef.of (T := ⟨S50000x10, .f32⟩) main_call2_v0) (TRef.of (T := ⟨S_, .f32⟩) main_call2_cst) (TRef.of (T := ⟨S50000, .f32⟩) main_call2_v1) (fun x v => Host.reduceAdd x v reducesTo_S50000x10_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v64) Host.sqrt,
    nullary main_cst_11 (constant S_ .f32 0x2B8CBCCC#32),
    unary main_cst_11 main_v65 (broadcastInDim S50000x1 ![] bcast_S_S50000x1 : (⟨S_, .f32⟩ : BufTy).Contents (Elt F) → (⟨S50000x1, .f32⟩ : BufTy).Contents (Elt F)),
    binary main_v64 main_v65 main_v66 (maximumf : (⟨S50000x1, .f32⟩ : BufTy).Contents (Elt F) → (⟨S50000x1, .f32⟩ : BufTy).Contents (Elt F) → (⟨S50000x1, .f32⟩ : BufTy).Contents (Elt F)),
    unary main_v66 main_v67 (broadcastInDim S50000x10 ![0, 1] bcast_S50000x1_S50000x10_0_1 : (⟨S50000x1, .f32⟩ : BufTy).Contents (Elt F) → (⟨S50000x10, .f32⟩ : BufTy).Contents (Elt F)),
    binary main_v63 main_v67 main_v68 (Host.divf : (⟨S50000x10, .f32⟩ : BufTy).Contents (Elt F) → (⟨S50000x10, .f32⟩ : BufTy).Contents (Elt F) → (⟨S50000x10, .f32⟩ : BufTy).Contents (Elt F)) ]

abbrev opsB3 : List (HloOp τ sig (Elt F)) :=
  [ TRef.nullary (TRef.of (T := ⟨S_, .f32⟩) main_call3_cst) (constant S_ .f32 0xFF800000#32),
    TRef.binary (TRef.of (T := ⟨S50000x10, .f32⟩) main_v68) (TRef.of (T := ⟨S_, .f32⟩) main_call3_cst) (TRef.of (T := ⟨S50000, .f32⟩) main_call3_v0) (fun x v => Host.reduce FloatOps.maximumf x v reducesTo_S50000x10_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x10, .f32⟩) main_call3_v4) (broadcastInDim S50000x10 ![0, 1] bcast_S50000x1_S50000x10_0_1),
    TRef.binary (TRef.of (T := ⟨S50000x10, .f32⟩) main_v68) (TRef.of (T := ⟨S50000x10, .f32⟩) main_call3_v4) (TRef.of (T := ⟨S50000x10, .f32⟩) main_call3_v5) subf,
    TRef.unary (TRef.of (T := ⟨S50000x10, .f32⟩) main_call3_v5) (TRef.of (T := ⟨S50000x10, .f32⟩) main_call3_v6) Host.exp,
    TRef.nullary (TRef.of (T := ⟨S_, .f32⟩) main_call3_cst_1) (constant S_ .f32 0x00000000#32),
    TRef.binary (TRef.of (T := ⟨S50000x10, .f32⟩) main_call3_v6) (TRef.of (T := ⟨S_, .f32⟩) main_call3_cst_1) (TRef.of (T := ⟨S50000, .f32⟩) main_call3_v7) (fun x v => Host.reduceAdd x v reducesTo_S50000x10_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x10, .f32⟩) main_call3_v10) (broadcastInDim S50000x10 ![0, 1] bcast_S50000x1_S50000x10_0_1),
    TRef.binary (TRef.of (T := ⟨S50000x10, .f32⟩) main_call3_v5) (TRef.of (T := ⟨S50000x10, .f32⟩) main_call3_v10) (TRef.of (T := ⟨S50000x10, .f32⟩) main_v69) subf ]

set_option maxRecDepth 8192 in
theorem ops_split : (RefOps.ops (F := F)) = opsA ++ (opsB1 ++ (opsB2 ++ opsB3)) := rfl

set_option maxRecDepth 8192 in
set_option maxHeartbeats 4000000 in
/-- The first stretch leaves the first layer's output, of the five arguments it reads. -/
theorem A_v36 (V : Valuation τ sig (Elt F)) :
    after (opsA (F := F)) V (Proc.devRef .tc main_v36)
      = Cert.Sage.x1R dims (V (Proc.devRef .tc main_arg0)) (V (Proc.devRef .tc main_arg1)) (V (Proc.devRef .tc main_arg2))
          (V (Proc.devRef .tc main_arg3)) (V (Proc.devRef .tc main_arg4)) := by
  after_results_simp
  rfl

set_option maxRecDepth 8192 in
set_option maxHeartbeats 4000000 in
/-- It leaves the edge list's two rows as vectors. -/
theorem A_v1 (V : Valuation τ sig (Elt F)) :
    after (opsA (F := F)) V (Proc.devRef .tc main_v1) = Cert.Sage.srcOf (V (Proc.devRef .tc main_arg1)) := by
  after_results_simp
  rfl

set_option maxRecDepth 8192 in
set_option maxHeartbeats 4000000 in
theorem A_v3 (V : Valuation τ sig (Elt F)) :
    after (opsA (F := F)) V (Proc.devRef .tc main_v3) = Cert.Sage.dstOf (V (Proc.devRef .tc main_arg1)) := by
  after_results_simp
  rfl

set_option maxRecDepth 8192 in
set_option maxHeartbeats 4000000 in
/-- It writes none of the second layer's weights. -/
theorem A_arg5 (V : Valuation τ sig (Elt F)) : after (opsA (F := F)) V (Proc.devRef .tc main_arg5) = V (Proc.devRef .tc main_arg5) := by
  after_results_simp

set_option maxRecDepth 8192 in
set_option maxHeartbeats 4000000 in
theorem A_arg6 (V : Valuation τ sig (Elt F)) : after (opsA (F := F)) V (Proc.devRef .tc main_arg6) = V (Proc.devRef .tc main_arg6) := by
  after_results_simp

set_option maxRecDepth 8192 in
set_option maxHeartbeats 4000000 in
theorem A_arg7 (V : Valuation τ sig (Elt F)) : after (opsA (F := F)) V (Proc.devRef .tc main_arg7) = V (Proc.devRef .tc main_arg7) := by
  after_results_simp

set_option maxRecDepth 8192 in
set_option maxHeartbeats 4000000 in
/-- The second stretch leaves the second layer's pre-activation, of the first layer's output, the two edge rows and the
    second layer's weights. -/
theorem B1_v63 (V : Valuation τ sig (Elt F)) :
    after (opsB1 (F := F)) V (Proc.devRef .tc main_v63)
      = Cert.Sage.pre2R dims
          (Cert.Sage.meanR dims (V (Proc.devRef .tc main_v36)) (V (Proc.devRef .tc main_v1)) (V (Proc.devRef .tc main_v3)))
          (V (Proc.devRef .tc main_v36)) (V (Proc.devRef .tc main_arg5)) (V (Proc.devRef .tc main_arg6)) (V (Proc.devRef .tc main_arg7)) := by
  after_results_simp
  rfl

set_option maxRecDepth 8192 in
set_option maxHeartbeats 4000000 in
/-- The third stretch scales each row of the pre-activation to unit length. -/
theorem B2_v68 (V : Valuation τ sig (Elt F)) :
    after (opsB2 (F := F)) V (Proc.devRef .tc main_v68) = Cert.Sage.unit2R (V (Proc.devRef .tc main_v63)) := by
  after_results_simp
  rfl

/-- A value carried along an equation between two types and back is the value. -/
theorem cast_cast_self {α β : Type} (h : α = β) (h' : β = α) (v : α) : cast h' (cast h v) = v := by
  subst h; rfl

set_option maxRecDepth 8192 in
set_option maxHeartbeats 4000000 in
/-- The last stretch takes the log-softmax along each row. Each of its fifteen results is carried to its buffer's type and
    read back along the same equation of types: the two transports cancel. -/
theorem B3_v69 (V : Valuation τ sig (Elt F)) :
    after (opsB3 (F := F)) V (Proc.devRef .tc main_v69) = Cert.Sage.lsmR (V (Proc.devRef .tc main_v68)) := by
  after_results_simp
  simp only [cast_cast_self]
  rfl

/-- The fold of all the operations at the result buffer, from any contents: the network's output of the contents of the
    eight argument buffers. -/
theorem result (V : Valuation τ sig (Elt F)) :
    after (RefOps.ops (F := F)) V (Proc.devRef .tc main_v69)
      = Cert.Sage.outR dims (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [ops_split, after_append, after_append, after_append, B3_v69, B2_v68, B1_v63, A_v36, A_v1, A_v3, A_arg5, A_arg6, A_arg7]
  rfl

/-! ## No operation writes an argument's buffer -/

set_option maxRecDepth 8192 in
set_option maxHeartbeats 4000000 in
theorem kept0 (V : Valuation τ sig (Elt F)) :
    after (RefOps.ops (F := F)) V (Proc.devRef .tc main_arg0) = V (Proc.devRef .tc main_arg0) := by
  after_results_simp

set_option maxRecDepth 8192 in
set_option maxHeartbeats 4000000 in
theorem kept1 (V : Valuation τ sig (Elt F)) :
    after (RefOps.ops (F := F)) V (Proc.devRef .tc main_arg1) = V (Proc.devRef .tc main_arg1) := by
  after_results_simp

set_option maxRecDepth 8192 in
set_option maxHeartbeats 4000000 in
theorem kept2 (V : Valuation τ sig (Elt F)) :
    after (RefOps.ops (F := F)) V (Proc.devRef .tc main_arg2) = V (Proc.devRef .tc main_arg2) := by
  after_results_simp

set_option maxRecDepth 8192 in
set_option maxHeartbeats 4000000 in
theorem kept3 (V : Valuation τ sig (Elt F)) :
    after (RefOps.ops (F := F)) V (Proc.devRef .tc main_arg3) = V (Proc.devRef .tc main_arg3) := by
  after_results_simp

set_option maxRecDepth 8192 in
set_option maxHeartbeats 4000000 in
theorem kept4 (V : Valuation τ sig (Elt F)) :
    after (RefOps.ops (F := F)) V (Proc.devRef .tc main_arg4) = V (Proc.devRef .tc main_arg4) := by
  after_results_simp

set_option maxRecDepth 8192 in
set_option maxHeartbeats 4000000 in
theorem kept5 (V : Valuation τ sig (Elt F)) :
    after (RefOps.ops (F := F)) V (Proc.devRef .tc main_arg5) = V (Proc.devRef .tc main_arg5) := by
  after_results_simp

set_option maxRecDepth 8192 in
set_option maxHeartbeats 4000000 in
theorem kept6 (V : Valuation τ sig (Elt F)) :
    after (RefOps.ops (F := F)) V (Proc.devRef .tc main_arg6) = V (Proc.devRef .tc main_arg6) := by
  after_results_simp

set_option maxRecDepth 8192 in
set_option maxHeartbeats 4000000 in
theorem kept7 (V : Valuation τ sig (Elt F)) :
    after (RefOps.ops (F := F)) V (Proc.devRef .tc main_arg7) = V (Proc.devRef .tc main_arg7) := by
  after_results_simp

/-- Every weakly fair execution of the reference's @main terminates with the result buffer at the network's output (host
    spelling) of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = Cert.Sage.outR (F := F) dims (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono (fun r h c => ⟨(h c main_v69).trans (result (launchContents m c)),
    (h c main_arg0).trans (kept0 (launchContents m c)), (h c main_arg1).trans (kept1 (launchContents m c)),
    (h c main_arg2).trans (kept2 (launchContents m c)), (h c main_arg3).trans (kept3 (launchContents m c)),
    (h c main_arg4).trans (kept4 (launchContents m c)), (h c main_arg5).trans (kept5 (launchContents m c)),
    (h c main_arg6).trans (kept6 (launchContents m c)), (h c main_arg7).trans (kept7 (launchContents m c))⟩)
    (RefOps.run_after m ρ)

end Cert.ReferenceIdeal.RefRun

end
-- ==== Proof.RefIdx.lean ====
/-
  The host spelling of each layer, read at an entry at the ideal values, is the layer's row function of the entry's row.
-/
import proofs.«108602_j31894427140226_1_alg».proof.Proof.Spec
import proofs.«108602_j31894427140226_1_alg».proof.Proof.LibPlainDot
import Idealize.ShloMosaic.Lib.Pipeline.Value
import Idealize.ShloMosaic.PureOps.Reduce

noncomputable section

namespace Cert.Sage

open Idealize.ShloMosaic Idealize.ShloMosaic.ValueIdx
open scoped BigOperators

/-! ## Layout operations read at an entry -/

section ShapeReads
variable {α : Type}

/-- A vector of 64 laid out as one row and repeated down the rows: entry (r, q) is the vector's entry q. -/
theorem bias64_apply (b : S64.Idx → α) (h1 : S1x64.BroadcastsInDim S50000x64 ![0, 1]) (h2 : S64.BroadcastsInDim S1x64 ![1])
    (r : Fin 50000) (q : Fin 64) :
    broadcastInDim S50000x64 ![0, 1] h1 (broadcastInDim S1x64 ![1] h2 b) (ix2 r q) = b (ix1 q) := by
  unfold broadcastInDim
  refine congrArg b (funext fun a => ?_)
  match a with
  | ⟨0, _⟩ => rfl
/-- The same for a vector of 10. -/
theorem bias10_apply (b : S10.Idx → α) (h1 : S1x10.BroadcastsInDim S50000x10 ![0, 1]) (h2 : S10.BroadcastsInDim S1x10 ![1])
    (r : Fin 50000) (q : Fin 10) :
    broadcastInDim S50000x10 ![0, 1] h1 (broadcastInDim S1x10 ![1] h2 b) (ix2 r q) = b (ix1 q) := by
  unfold broadcastInDim
  refine congrArg b (funext fun a => ?_)
  match a with
  | ⟨0, _⟩ => rfl

/-- A column repeated along 64 features: entry (r, q) is the column's entry (r, 0). -/
theorem spread64_apply (c : S50000x1.Idx → α) (h1 : S50000x1.BroadcastsInDim S50000x64 ![0, 1]) (r : Fin 50000) (q : Fin 64) :
    broadcastInDim S50000x64 ![0, 1] h1 c (ix2 r q) = c (ix2 r 0) := by
  unfold broadcastInDim
  refine congrArg c (funext fun a => ?_)
  match a with
  | ⟨0, _⟩ => rfl
  | ⟨1, _⟩ => rfl
/-- A column repeated along 10 classes. -/
theorem spread10_apply (c : S50000x1.Idx → α) (h1 : S50000x1.BroadcastsInDim S50000x10 ![0, 1]) (r : Fin 50000) (q : Fin 10) :
    broadcastInDim S50000x10 ![0, 1] h1 c (ix2 r q) = c (ix2 r 0) := by
  unfold broadcastInDim
  refine congrArg c (funext fun a => ?_)
  match a with
  | ⟨0, _⟩ => rfl
  | ⟨1, _⟩ => rfl

/-- A per-node vector as a column: entry (r, 0) is the vector's entry r. -/
theorem colOf_apply (v : S50000.Idx → α) (h : S50000.BroadcastsInDim S50000x1 ![0]) (r : Fin 50000) (z : Fin 1) :
    broadcastInDim S50000x1 ![0] h v (ix2 r z) = v (ix1 r) := by
  unfold broadcastInDim
  refine congrArg v (funext fun a => ?_)
  match a with
  | ⟨0, _⟩ => rfl

/-- The transpose of a 64 × 64 matrix at (k, j) is the matrix at (j, k). -/
theorem tr64_apply (W : S64x64.Idx → α) (h : S64x64.Transposes [1, 0] S64x64) (k j : Fin 64) :
    transpose S64x64 [1, 0] W h (ix2 k j) = W (ix2 j k) := by
  refine transpose_apply [1, 0] W h (ix2 k j) (ix2 j k) fun b => ?_
  match b with
  | ⟨0, _⟩ => rfl
  | ⟨1, _⟩ => rfl
/-- The transpose of a 10 × 64 matrix at (k, j) is the matrix at (j, k). -/
theorem tr10_apply (W : S10x64.Idx → α) (h : S10x64.Transposes [1, 0] S64x10) (k : Fin 64) (j : Fin 10) :
    transpose S64x10 [1, 0] W h (ix2 k j) = W (ix2 j k) := by
  refine transpose_apply [1, 0] W h (ix2 k j) (ix2 j k) fun b => ?_
  match b with
  | ⟨0, _⟩ => rfl
  | ⟨1, _⟩ => rfl

end ShapeReads

/-! ## The stages of a layer read at an entry -/

/-- A product against a transposed 64 × 64 weight, at (r, q): row r against the weight's row q. -/
theorem dot64_apply (D : Dims) (hD : D.Ok) (m : FVec Ideal S50000x64 .f32) (W : FVec Ideal S64x64 .f32)
    (h : S64x64.Transposes [1, 0] S64x64) (r : Fin 50000) (q : Fin 64) :
    Host.dotGeneral D.dA none m (transpose S64x64 [1, 0] W h) (ix2 r q) = dotRow (rowOf m r) (matT W) q := by
  show FloatOps.dotGeneral D.dA none .single m (transpose S64x64 [1, 0] W h) (ix2 r q) = _
  rw [Cert.LibPlainDot.dotGeneral_apply D.dA hD.dA_lc hD.dA_rc hD.dA_ln hD.dA_rn hD.dA_lb hD.dA_rb]
  unfold dotRow rowOf matT
  exact Finset.sum_congr rfl fun k _ => by rw [tr64_apply]
/-- A product against a transposed 10 × 64 weight, at (r, q). -/
theorem dot10_apply (D : Dims) (hD : D.Ok) (m : FVec Ideal S50000x64 .f32) (W : FVec Ideal S10x64 .f32)
    (h : S10x64.Transposes [1, 0] S64x10) (r : Fin 50000) (q : Fin 10) :
    Host.dotGeneral D.dB none m (transpose S64x10 [1, 0] W h) (ix2 r q) = dotRow (rowOf m r) (matT W) q := by
  show FloatOps.dotGeneral D.dB none .single m (transpose S64x10 [1, 0] W h) (ix2 r q) = _
  rw [Cert.LibPlainDot.dotGeneral_apply D.dB hD.dB_lc hD.dB_rc hD.dB_ln hD.dB_rn hD.dB_lb hD.dB_rb]
  unfold dotRow rowOf matT
  exact Finset.sum_congr rfl fun k _ => by rw [tr10_apply]

/-- Layer one before the normalisation, at (r, q). -/
theorem pre1R_apply (D : Dims) (hD : D.Ok) (mean x : FVec Ideal S50000x64 .f32) (Wl : FVec Ideal S64x64 .f32)
    (b : FVec Ideal S64 .f32) (Wr : FVec Ideal S64x64 .f32) (r : Fin 50000) (q : Fin 64) :
    pre1R (F := Ideal) D mean x Wl b Wr (ix2 r q)
      = preR (rowOf mean r) (rowOf x r) (matT Wl) (matT Wr) (fun j => b (ix1 j)) q := by
  unfold pre1R preR
  rw [addf_apply, addf_apply, dot64_apply D hD, dot64_apply D hD, bias64_apply]
/-- Layer two before the normalisation, at (r, q). -/
theorem pre2R_apply (D : Dims) (hD : D.Ok) (mean x : FVec Ideal S50000x64 .f32) (Wl : FVec Ideal S10x64 .f32)
    (b : FVec Ideal S10 .f32) (Wr : FVec Ideal S10x64 .f32) (r : Fin 50000) (q : Fin 10) :
    pre2R (F := Ideal) D mean x Wl b Wr (ix2 r q)
      = preR (rowOf mean r) (rowOf x r) (matT Wl) (matT Wr) (fun j => b (ix1 j)) q := by
  unfold pre2R preR
  rw [addf_apply, addf_apply, dot10_apply D hD, dot10_apply D hD, bias10_apply]

/-- A scalar constant repeated over any shape, at any entry, is the constant's value. -/
theorem splat_apply (t : Shape) (dims : Fin S_.rank → Fin t.rank) (h : S_.BroadcastsInDim t dims) (c : BitVec 32) (j : t.Idx) :
    broadcastInDim t dims h (constant (F := Ideal) S_ .f32 c) j = Ideal.ofBits .f32 c := rfl

section HostPointwise
variable {s : Shape} (a c : FVec Ideal s .f32) (i : s.Idx)
/-- The host's pointwise operations at an entry are the extended reals'. -/
theorem hostDivf_at : Host.divf a c i = Ideal.div (a i) (c i) := rfl
theorem hostSqrt_at : Host.sqrt a i = Ideal.sqrt (a i) := rfl
theorem hostExp_at : Host.exp a i = Ideal.exp (a i) := rfl
theorem hostLog_at : Host.log a i = Ideal.log (a i) := rfl
end HostPointwise

/-- The index a row sum inserts coordinate k into, at row r, is (r, k). -/
theorem lift64 (h : S50000x64.Reduces [1] S50000) (r : Fin 50000) (k : Fin 64) : h.lift (ix1 r) k = ix2 r k :=
  funext fun a => Fin.ext (match a with | ⟨0, _⟩ => rfl | ⟨1, _⟩ => rfl)
theorem lift10 (h : S50000x10.Reduces [1] S50000) (r : Fin 50000) (k : Fin 10) : h.lift (ix1 r) k = ix2 r k :=
  funext fun a => Fin.ext (match a with | ⟨0, _⟩ => rfl | ⟨1, _⟩ => rfl)

/-- The host's sum along a row of 64 from the zero constant, at r. -/
theorem rowsum64_apply (x : FVec Ideal S50000x64 .f32) (h : S50000x64.ReducesTo [1] S50000) (hu : 0 < S_.numel) (r : Fin 50000) :
    Host.reduceAdd (t := S50000) x (constant S_ .f32 0x00000000#32) h hu (ix1 r) = ∑ j : Fin 64, x (ix2 r j) := by
  show Ideal.hostReduceAdd h x (constant (F := Ideal) S_ .f32 0x00000000#32 (Shape.Idx.first hu)) (ix1 r) = _
  rw [Ideal.hostReduceAdd_single h (by decide : S50000x64.Reduces [1] S50000), constant_apply, Ideal.ofBits_zero_f32, zero_add]
  exact Finset.sum_congr rfl fun k _ => congrArg x (lift64 _ r k)
/-- The host's sum along a row of 10 from the zero constant, at r. -/
theorem rowsum10_apply (x : FVec Ideal S50000x10 .f32) (h : S50000x10.ReducesTo [1] S50000) (hu : 0 < S_.numel) (r : Fin 50000) :
    Host.reduceAdd (t := S50000) x (constant S_ .f32 0x00000000#32) h hu (ix1 r) = ∑ j : Fin 10, x (ix2 r j) := by
  show Ideal.hostReduceAdd h x (constant (F := Ideal) S_ .f32 0x00000000#32 (Shape.Idx.first hu)) (ix1 r) = _
  rw [Ideal.hostReduceAdd_single h (by decide : S50000x10.Reduces [1] S50000), constant_apply, Ideal.ofBits_zero_f32, zero_add]
  exact Finset.sum_congr rfl fun k _ => congrArg x (lift10 _ r k)

/-- A row's Euclidean length (64 features), at (r, 0). -/
theorem norm1R_apply (v : FVec Ideal S50000x64 .f32) (r : Fin 50000) (z : Fin 1) :
    norm1R (F := Ideal) v (ix2 r z) = Ideal.sqrt (∑ j : Fin 64, v (ix2 r j) * v (ix2 r j)) := by
  unfold norm1R
  rw [hostSqrt_at, colOf_apply, rowsum64_apply]
  rfl
/-- A row's Euclidean length (10 classes), at (r, 0). -/
theorem norm2R_apply (v : FVec Ideal S50000x10 .f32) (r : Fin 50000) (z : Fin 1) :
    norm2R (F := Ideal) v (ix2 r z) = Ideal.sqrt (∑ j : Fin 10, v (ix2 r j) * v (ix2 r j)) := by
  unfold norm2R
  rw [hostSqrt_at, colOf_apply, rowsum10_apply]
  rfl

/-- A row of 64 over its length, at (r, q). -/
theorem unit1R_apply (v : FVec Ideal S50000x64 .f32) (r : Fin 50000) (q : Fin 64) :
    unit1R (F := Ideal) v (ix2 r q) = unit (rowOf v r) q := by
  unfold unit1R
  rw [hostDivf_at, spread64_apply, maximumf_apply, splat_apply, norm1R_apply]
  rfl
/-- A row of 10 over its length, at (r, q). -/
theorem unit2R_apply (v : FVec Ideal S50000x10 .f32) (r : Fin 50000) (q : Fin 10) :
    unit2R (F := Ideal) v (ix2 r q) = unit (rowOf v r) q := by
  unfold unit2R
  rw [hostDivf_at, spread10_apply, maximumf_apply, splat_apply, norm2R_apply]
  rfl

/-- The rectifier, at any entry. -/
theorem relu1R_apply (v : FVec Ideal S50000x64 .f32) (i : S50000x64.Idx) : relu1R (F := Ideal) v i = max (v i) 0 := by
  unfold relu1R
  rw [maximumf_apply, splat_apply, Ideal.ofBits_zero_f32]

/-- The host's maximum along a row of 10 from the floor constant, at r, is the row's maximum. -/
theorem rowmax10_apply (y : FVec Ideal S50000x10 .f32) (h : S50000x10.ReducesTo [1] S50000) (hu : 0 < S_.numel) (r : Fin 50000) :
    Host.reduce (t := S50000) FloatOps.maximumf y (constant S_ .f32 0xFF800000#32) h hu (ix1 r) = rmax (rowOf y r) := by
  rw [Host.reduce_eq_fold_single FloatOps.maximumf y _ h (by decide : S50000x10.Reduces [1] S50000) hu (ix1 r)]
  unfold rmax ninf
  rw [show (y ∘ (by decide : S50000x10.Reduces [1] S50000).lift (ix1 r)) = rowOf y r from
    funext fun k => congrArg y (lift10 _ r k)]
  rfl

/-- The floor a row's maximum starts from is no larger than that maximum. -/
theorem ninf_le_rmax {n : Nat} (y : Fin n → EReal) : ninf ≤ rmax y :=
  (Finset.le_fold_max ninf).mpr (Or.inl le_rfl)

/-- A row's entries less the row's maximum, at (r, q). -/
theorem shiftR_apply (y : FVec Ideal S50000x10 .f32) (r : Fin 50000) (q : Fin 10) :
    shiftR (F := Ideal) y (ix2 r q) = y (ix2 r q) - rmax (rowOf y r) := by
  unfold shiftR
  rw [subf_apply, spread10_apply, colOf_apply, maximumf_apply, splat_apply, rowmax10_apply]
  rw [show Ideal.ofBits .f32 0xFF800000#32 = ninf from rfl, max_eq_right (ninf_le_rmax _)]

/-- The log-softmax along a row, at (r, q). -/
theorem lsmR_apply (y : FVec Ideal S50000x10 .f32) (r : Fin 50000) (q : Fin 10) :
    lsmR (F := Ideal) y (ix2 r q) = lsmRow (rowOf y r) q := by
  unfold lsmR lsmRow
  rw [subf_apply, shiftR_apply, spread10_apply, hostLog_at, colOf_apply, rowsum10_apply]
  refine congrArg (fun s => (y (ix2 r q) - rmax (rowOf y r)) - Ideal.log s) (Finset.sum_congr rfl fun j _ => ?_)
  rw [hostExp_at, shiftR_apply]
  rfl

/-- Layer one in the host spelling is the array of its row functions. -/
theorem dense1R_eq (D : Dims) (hD : D.Ok) (mean x : FVec Ideal S50000x64 .f32) (Wl : FVec Ideal S64x64 .f32)
    (b : FVec Ideal S64 .f32) (Wr : FVec Ideal S64x64 .f32) :
    dense1R (F := Ideal) D mean x Wl b Wr = layer1R mean x Wl Wr b := by
  funext i
  obtain ⟨r, q, rfl⟩ : ∃ (r : Fin 50000) (q : Fin 64), i = ix2 r q := ⟨i 0, i 1, eq_ix2 i⟩
  unfold dense1R
  rw [relu1R_apply, unit1R_apply]
  have hrow : rowOf (pre1R (F := Ideal) D mean x Wl b Wr) r
      = preR (rowOf mean r) (rowOf x r) (matT Wl) (matT Wr) (fun j => b (ix1 j)) :=
    funext fun k => pre1R_apply D hD mean x Wl b Wr r k
  rw [hrow]
  rfl

/-- Layer two in the host spelling is the array of its row functions. -/
theorem dense2R_eq (D : Dims) (hD : D.Ok) (mean x : FVec Ideal S50000x64 .f32) (Wl : FVec Ideal S10x64 .f32)
    (b : FVec Ideal S10 .f32) (Wr : FVec Ideal S10x64 .f32) :
    dense2R (F := Ideal) D mean x Wl b Wr = layer2R mean x Wl Wr b := by
  funext i
  obtain ⟨r, q, rfl⟩ : ∃ (r : Fin 50000) (q : Fin 10), i = ix2 r q := ⟨i 0, i 1, eq_ix2 i⟩
  unfold dense2R
  rw [lsmR_apply]
  have hunit : rowOf (unit2R (F := Ideal) (pre2R (F := Ideal) D mean x Wl b Wr)) r
      = unit (rowOf (pre2R (F := Ideal) D mean x Wl b Wr) r) :=
    funext fun k => unit2R_apply _ r k
  have hrow : rowOf (pre2R (F := Ideal) D mean x Wl b Wr) r
      = preR (rowOf mean r) (rowOf x r) (matT Wl) (matT Wr) (fun j => b (ix1 j)) :=
    funext fun k => pre2R_apply D hD mean x Wl b Wr r k
  rw [hunit, hrow]
  rfl

end Cert.Sage

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.LayerAlg.lean ====
/-
  The two arrangements of a layer agree: the sums in either order, the weights read transposed, the bias from a row or
  a vector; and, for real rows, the two arrangements of the log-softmax. A layer of real arrays is real.
-/
import proofs.«108602_j31894427140226_1_alg».proof.Proof.Spec
import proofs.«108602_j31894427140226_1_alg».proof.Proof.LibFiniteOps
import Idealize.ShloMosaic.Lib.ValueLayout

noncomputable section

namespace Cert.Sage

open Idealize.ShloMosaic Idealize.ShloMosaic.ValueIdx Idealize.ShloMosaic.FiniteOps
open scoped BigOperators

/-! ### The layouts read at an index -/

/-- A transposed matrix by coordinates is the matrix read transposed. -/
theorem mat_tr64 (W : FVec Ideal S64x64 .f32) : mat (tr64 W) = matT W := by
  funext k j
  exact transpose_ix2_apply W _ k j
theorem mat_tr10 (W : FVec Ideal S10x64 .f32) : mat (tr10 W) = matT W := by
  funext k j
  exact transpose_ix2_apply W _ k j

/-- The one row of a vector laid out as a one-row matrix is the vector. -/
theorem rowOf_row64 (b : FVec Ideal S64 .f32) : rowOf (row64 b) 0 = fun j => b (ix1 j) := by
  funext j
  exact shapeCast_a_1a_apply b _ 0 j
theorem rowOf_row10 (b : FVec Ideal S10 .f32) : rowOf (row10 b) 0 = fun j => b (ix1 j) := by
  funext j
  exact shapeCast_a_1a_apply b _ 0 j

/-! ### The sum in either order -/

section Rows
variable {n : Nat}

/-- `(a + c) + b = (a + b) + c` on every extended real. -/
theorem preK_eq_preR (mr xr : Fin 64 → EReal) (wl wr : Fin 64 → Fin n → EReal) (b : Fin n → EReal) :
    preK mr xr wl wr b = preR mr xr wl wr b := by
  funext q
  exact add_right_comm _ _ _

/-! ### Real rows -/

theorem isReal_dotRow {a : Fin 64 → EReal} {w : Fin 64 → Fin n → EReal} (ha : ∀ k, IsReal (a k))
    (hw : ∀ k q, IsReal (w k q)) (q : Fin n) : IsReal (dotRow a w q) :=
  IsReal.sum _ _ fun k _ => (ha k).mul (hw k q)

theorem isReal_preR {mr xr : Fin 64 → EReal} {wl wr : Fin 64 → Fin n → EReal} {b : Fin n → EReal}
    (hm : ∀ k, IsReal (mr k)) (hx : ∀ k, IsReal (xr k)) (hl : ∀ k q, IsReal (wl k q)) (hr : ∀ k q, IsReal (wr k q))
    (hb : ∀ q, IsReal (b q)) (q : Fin n) : IsReal (preR mr xr wl wr b q) :=
  ((isReal_dotRow hm hl q).add (hb q)).add (isReal_dotRow hx hr q)

/-- The tiny constant is a positive real. -/
theorem isPos_eps : IsPos eps := by
  unfold eps IsPos
  simp [Ideal.ofBits, Ideal.ieee]
  exact ⟨9223372 * (2 ^ 63)⁻¹, by positivity, (EReal.coe_mul _ _).symm⟩

/-- The floor of a maximum is the bottom element. -/
theorem ninf_eq_bot : ninf = ⊥ := by
  simp [ninf, Ideal.ofBits, Ideal.ieee]

/-- The square root of a nonnegative real is a nonnegative real. -/
theorem isNonneg_sqrt {a : EReal} (ha : IsNonneg a) : IsNonneg (Ideal.sqrt a) := by
  obtain ⟨x, hx, rfl⟩ := ha
  rw [Ideal.sqrt_coe, if_neg (not_lt.2 hx)]
  exact ⟨Real.sqrt x, Real.sqrt_nonneg x, rfl⟩

/-- The larger of a real and a positive real is a positive real. -/
theorem isPos_max {a b : EReal} (ha : IsReal a) (hb : IsPos b) : IsPos (max a b) := by
  rcases le_total a b with h | h
  · rw [max_eq_right h]; exact hb
  · rw [max_eq_left h]
    exact isPos_iff.2 ⟨ha, lt_of_lt_of_le (isPos_iff.1 hb).2 h⟩

/-- A real row's length is a positive real. -/
theorem isPos_nrm {v : Fin n → EReal} (hv : ∀ j, IsReal (v j)) : IsPos (nrm v) :=
  isPos_max (isNonneg_sqrt (IsNonneg.sum _ _ fun j _ => (hv j).mul_self_nonneg)).isReal isPos_eps

/-- A real row over its length is a real row. -/
theorem isReal_unit {v : Fin n → EReal} (hv : ∀ j, IsReal (v j)) (q : Fin n) : IsReal (unit v q) :=
  (hv q).div (isPos_nrm hv).isReal (isPos_nrm hv).ne_zero

/-- The rectified unit row of a real row is real. -/
theorem isReal_rect {v : Fin n → EReal} (hv : ∀ j, IsReal (v j)) (q : Fin n) : IsReal (rect v q) :=
  (isReal_unit hv q).max isReal_zero

/-- The maximum of a nonempty family of reals, started from the bottom element, is real. -/
theorem isReal_fold_max {ι : Type} [DecidableEq ι] (y : ι → EReal) (hy : ∀ j, IsReal (y j)) (s : Finset ι) :
    s.Nonempty → IsReal (s.fold max ⊥ y) := by
  induction s using Finset.induction_on with
  | empty => intro h; exact absurd h Finset.not_nonempty_empty
  | insert a s ha ih =>
    intro _
    rw [Finset.fold_insert ha]
    rcases s.eq_empty_or_nonempty with rfl | hs
    · rw [Finset.fold_empty, max_bot_right]; exact hy a
    · exact (hy a).max (ih hs)

/-- A nonempty real row's maximum is real. -/
theorem isReal_rmax {y : Fin n → EReal} (hy : ∀ j, IsReal (y j)) (hn : 0 < n) : IsReal (rmax y) := by
  unfold rmax
  rw [ninf_eq_bot]
  exact isReal_fold_max y hy _ ⟨⟨0, hn⟩, Finset.mem_univ _⟩

/-! ### The two arrangements of the log-softmax -/

/-- `a - (L + M) = (a - M) - L` for real `a` and `M`, whatever `L`. -/
theorem sub_add_eq {a M : EReal} (ha : IsReal a) (hM : IsReal M) (L : EReal) : a - (L + M) = (a - M) - L := by
  obtain ⟨x, rfl⟩ := ha
  obtain ⟨m, rfl⟩ := hM
  induction L using EReal.rec with
  | bot => rw [EReal.bot_add, ← EReal.coe_sub, EReal.coe_sub_bot, EReal.coe_sub_bot]
  | top => rw [EReal.top_add_coe, ← EReal.coe_sub, EReal.sub_top, EReal.sub_top]
  | coe l =>
    rw [← EReal.coe_add, ← EReal.coe_sub, ← EReal.coe_sub, ← EReal.coe_sub]
    congr 1
    ring

/-- On a nonempty real row the two arrangements agree. -/
theorem lsmK_eq_lsmRow {y : Fin n → EReal} (hy : ∀ j, IsReal (y j)) (hn : 0 < n) : lsmK y = lsmRow y := by
  funext q
  exact sub_add_eq (hy q) (isReal_rmax hy hn) _

end Rows

/-- Layer one: the two arrangements agree on every extended real. -/
theorem layer1K_eq_layer1R (mean x : FVec Ideal S50000x64 .f32) (Wl Wr : FVec Ideal S64x64 .f32) (b : FVec Ideal S64 .f32) :
    layer1K mean x (tr64 Wl) (tr64 Wr) (row64 b) = layer1R mean x Wl Wr b := by
  funext i
  unfold layer1K layer1R
  rw [mat_tr64, mat_tr64, rowOf_row64, preK_eq_preR]

/-- Layer two: the two arrangements agree when every operand is real. -/
theorem layer2K_eq_layer2R (mean x : FVec Ideal S50000x64 .f32) (Wl Wr : FVec Ideal S10x64 .f32) (b : FVec Ideal S10 .f32)
    (hm : AllReal mean) (hx : AllReal x) (hl : AllReal Wl) (hr : AllReal Wr) (hb : AllReal b) :
    layer2K mean x (tr10 Wl) (tr10 Wr) (row10 b) = layer2R mean x Wl Wr b := by
  funext i
  unfold layer2K layer2R
  rw [mat_tr10, mat_tr10, rowOf_row10, preK_eq_preR]
  refine congrFun (lsmK_eq_lsmRow (fun j => isReal_unit (fun j => ?_) j) (by decide)) (i 1)
  exact isReal_preR (fun k => hm _) (fun k => hx _) (fun k q => hl _) (fun k q => hr _) (fun q => hb _) j

/-- Layer one of real arrays is real. -/
theorem allReal_layer1R (mean x : FVec Ideal S50000x64 .f32) (Wl Wr : FVec Ideal S64x64 .f32) (b : FVec Ideal S64 .f32)
    (hm : AllReal mean) (hx : AllReal x) (hl : AllReal Wl) (hr : AllReal Wr) (hb : AllReal b) :
    AllReal (layer1R mean x Wl Wr b) := fun i =>
  isReal_rect (fun j => isReal_preR (fun k => hm _) (fun k => hx _) (fun k q => hl _) (fun k q => hr _) (fun q => hb _) j) (i 1)

end Cert.Sage

end
-- ==== Proof.Finite.lean ====
/-
  The mean in its two forms, its realness, and the finiteness precondition read back as: every float argument is real.
-/
import proofs.«108602_j31894427140226_1_alg».proof.Proof.Spec
import proofs.«108602_j31894427140226_1_alg».proof.Proof.LibFiniteOps
import proofs.«108602_j31894427140226_1_alg».proof.Pre_finite_inputs

noncomputable section

namespace Cert.Sage

open Idealize.ShloMosaic Idealize.ShloMosaic.ValueIdx Idealize.ShloMosaic.FiniteOps

/-- The larger of a nonnegative real and a positive real is a positive real. -/
theorem isPos_max_of_nonneg_of_pos {a b : EReal} (ha : IsNonneg a) (hb : IsPos b) : IsPos (Max.max a b) := by
  rcases le_total a b with h | h
  · rw [show Max.max a b = b from max_eq_right h]; exact hb
  · rw [show Max.max a b = a from max_eq_left h]
    exact isPos_iff.2 ⟨ha.isReal, lt_of_lt_of_le (isPos_iff.1 hb).2 h⟩

/-- The count is a nonnegative real: ones summed into zeros. -/
theorem allNonneg_cnt (D : Dims) (dst : IVec S1250000 32) : AllNonneg (cnt (F := Ideal) D dst) :=
  AllNonneg.hostScatterAdd D.d1 (col dst)
    (AllNonneg.broadcastInDim (allNonneg_constant isNonneg_ofBits_zero_f32) _ _)
    (AllNonneg.broadcastInDim (allNonneg_constant isPos_ofBits_one_f32.isNonneg) _ _)

/-- The entrywise larger of a nonnegative vector and a positive one is positive. -/
theorem allPos_maximumf_of_nonneg_of_pos {s : Shape} {φ : FTy} {a b : FVec Ideal s φ} (ha : AllNonneg a) (hb : AllPos b) :
    AllPos (maximumf a b) :=
  fun i => isPos_max_of_nonneg_of_pos (ha i) (hb i)

/-- The clipped count is a positive real. -/
theorem allPos_cmax (D : Dims) (dst : IVec S1250000 32) : AllPos (cmax (F := Ideal) D dst) := by
  unfold cmax
  exact allPos_maximumf_of_nonneg_of_pos (allNonneg_cnt D dst)
    (AllPos.broadcastInDim (allPos_constant isPos_ofBits_one_f32) _ _)

/-- A per-node positive real repeated along the features is positive. -/
theorem allPos_spread {v : FVec Ideal S50000 .f32} (hv : AllPos v) : AllPos (spread v) :=
  AllPos.broadcastInDim (AllPos.broadcastInDim hv _ _) _ _

/-- The aggregate of a real array is real: finitely many real rows summed into zeros. -/
theorem allReal_agg (D : Dims) {x : FVec Ideal S50000x64 .f32} (hx : AllReal x) (src dst : IVec S1250000 32) :
    AllReal (agg (F := Ideal) D x src dst) :=
  AllReal.hostScatterAdd D.d2 (col dst)
    (AllReal.broadcastInDim (allReal_constant isReal_ofBits_zero_f32) _ _)
    (AllReal.gather hx D.g (col (wrap src)))

/-- An entry of a per-node value repeated along the features is that value at one node, the same whatever the value. -/
theorem spread_reads (i : S50000x64.Idx) :
    ∃ k : S50000.Idx, ∀ v : FVec Ideal S50000 .f32, spread v i = v k := ⟨_, fun _ => rfl⟩

/-- Times the reciprocal of a positive real is over that positive real. -/
theorem mul_recip_eq_div (a : EReal) {c : EReal} (hc : IsPos c) :
    a * Ideal.div (Ideal.ofBits .f32 0x3F800000#32) c = Ideal.div a c := by
  obtain ⟨y, hy, rfl⟩ := hc
  rw [ofBits_one_f32, Ideal.div_coe hy.ne', Ideal.div_coe hy.ne', one_mul]

/-- An array times the repeated reciprocals of positive reals is the array over those reals repeated. -/
theorem mulf_spread_recip_eq (a : FVec Ideal S50000x64 .f32) {c : FVec Ideal S50000 .f32} (hc : AllPos c) :
    mulf a (spread (Host.divf (broadcastInDim S50000 ![] (by decide) (constant S_ .f32 0x3F800000#32)) c))
      = Host.divf a (spread c) := by
  funext i
  obtain ⟨k, hk⟩ := spread_reads i
  show FloatOps.mulf (a i)
      (spread (Host.divf (broadcastInDim S50000 ![] (by decide) (constant S_ .f32 0x3F800000#32)) c) i)
    = FloatOps.hostDivf (a i) (spread c i)
  rw [hk, hk]
  show a i * Ideal.div (Ideal.ofBits .f32 0x3F800000#32) (c k) = Ideal.div (a i) (c k)
  exact mul_recip_eq_div _ (hc k)

/-- The aggregate times the clipped count's reciprocal is the aggregate over the clipped count: the clipped count is a
    real number at least one. -/
theorem meanK_eq_meanR (D : Dims) (x : FVec Ideal S50000x64 .f32) (src dst : IVec S1250000 32) :
    meanK (F := Ideal) D x src dst = meanR (F := Ideal) D x src dst := by
  unfold meanK meanR
  exact mulf_spread_recip_eq _ (allPos_cmax D dst)

/-- The mean of a real array is real. -/
theorem allReal_meanR (D : Dims) (x : FVec Ideal S50000x64 .f32) (hx : AllReal x) (src dst : IVec S1250000 32) :
    AllReal (meanR (F := Ideal) D x src dst) := by
  unfold meanR
  exact AllReal.hostDivf_pos (allReal_agg D hx src dst) (allPos_spread (allPos_cmax D dst))

/-- A conjunction of two one-bit vectors is one at an index exactly when both are. -/
theorem andi_apply_eq_one {s : Shape} {x y : IVec s 1} {j : s.Idx} :
    andi x y j = 1#1 ↔ x j = 1#1 ∧ y j = 1#1 := IntOp.andi_eq_one

/-- The precondition "every float input is finite", read back. -/
theorem allReal_of_pre [Cert.Pre_finite_inputs.Facts] (a0 : FVec Ideal S50000x64 .f32) (a1 : IVec S2x1250000 32) (a2 : FVec Ideal S64x64 .f32)
    (a3 : FVec Ideal S64 .f32) (a4 : FVec Ideal S64x64 .f32) (a5 : FVec Ideal S10x64 .f32) (a6 : FVec Ideal S10 .f32)
    (a7 : FVec Ideal S10x64 .f32)
    (h : Cert.Pre_finite_inputs.fn (F := Ideal) a0 a1 a2 a3 a4 a5 a6 a7 = fun _ => 1#1) :
    AllReal a0 ∧ AllReal a2 ∧ AllReal a3 ∧ AllReal a4 ∧ AllReal a5 ∧ AllReal a6 ∧ AllReal a7 := by
  have e := congrFun h ValueIdx.ix0
  dsimp only [Cert.Pre_finite_inputs.fn, Cert.Pre_finite_inputs.fn_part1] at e
  obtain ⟨e, h7⟩ := andi_apply_eq_one.1 e
  obtain ⟨e, h6⟩ := andi_apply_eq_one.1 e
  obtain ⟨e, h5⟩ := andi_apply_eq_one.1 e
  obtain ⟨e, h4⟩ := andi_apply_eq_one.1 e
  obtain ⟨e, h3⟩ := andi_apply_eq_one.1 e
  obtain ⟨h0, h2⟩ := andi_apply_eq_one.1 e
  exact ⟨allReal_of_all_abs_lt_inf a0 _ _ _ _ h0, allReal_of_all_abs_lt_inf a2 _ _ _ _ h2,
    allReal_of_all_abs_lt_inf a3 _ _ _ _ h3, allReal_of_all_abs_lt_inf a4 _ _ _ _ h4,
    allReal_of_all_abs_lt_inf a5 _ _ _ _ h5, allReal_of_all_abs_lt_inf a6 _ _ _ _ h6,
    allReal_of_all_abs_lt_inf a7 _ _ _ _ h7⟩

end Cert.Sage

end
-- ==== Proof.Bridge.lean ====
/-
  The network's output in the kernel's arrangement equals its output in the host spelling, for real arguments.

  Layer by layer: the mean's product form is its quotient form; the first layer's two arrangements agree on every
  extended real; so the two first-layer outputs are one array, and it is real when the arguments are. On a real array
  the second layer's two arrangements (the log-softmax with the maximum added back or subtracted first) agree too.
-/
import proofs.«108602_j31894427140226_1_alg».proof.Proof.Spec
import proofs.«108602_j31894427140226_1_alg».proof.Proof.RefIdx
import proofs.«108602_j31894427140226_1_alg».proof.Proof.LayerAlg
import proofs.«108602_j31894427140226_1_alg».proof.Proof.Finite

noncomputable section

namespace Cert.Sage

open Idealize.ShloMosaic Idealize.ShloMosaic.FiniteOps

/-- The first layer's output: the kernel's arrangement is the host spelling. -/
theorem x1K_eq_x1R (D : Dims) (hD : D.Ok) (x0 : FVec Ideal S50000x64 .f32) (ei : IVec S2x1250000 32)
    (W1l : FVec Ideal S64x64 .f32) (b1 : FVec Ideal S64 .f32) (W1r : FVec Ideal S64x64 .f32) :
    x1K D x0 ei W1l b1 W1r = x1R (F := Ideal) D x0 ei W1l b1 W1r := by
  unfold x1K x1R
  rw [meanK_eq_meanR, layer1K_eq_layer1R, ← dense1R_eq D hD]

/-- The first layer's output is real when the arguments are. -/
theorem allReal_x1R (D : Dims) (hD : D.Ok) (x0 : FVec Ideal S50000x64 .f32) (ei : IVec S2x1250000 32)
    (W1l : FVec Ideal S64x64 .f32) (b1 : FVec Ideal S64 .f32) (W1r : FVec Ideal S64x64 .f32)
    (h0 : AllReal x0) (hl : AllReal W1l) (hb : AllReal b1) (hr : AllReal W1r) :
    AllReal (x1R (F := Ideal) D x0 ei W1l b1 W1r) := by
  unfold x1R
  rw [dense1R_eq D hD]
  exact allReal_layer1R _ _ _ _ _ (allReal_meanR D x0 h0 _ _) h0 hl hr hb

/-- The network's output: the kernel's arrangement is the host spelling, for real arguments. -/
theorem outK_eq_outR (D : Dims) (hD : D.Ok) (x0 : FVec Ideal S50000x64 .f32) (ei : IVec S2x1250000 32)
    (W1l : FVec Ideal S64x64 .f32) (b1 : FVec Ideal S64 .f32) (W1r : FVec Ideal S64x64 .f32)
    (W2l : FVec Ideal S10x64 .f32) (b2 : FVec Ideal S10 .f32) (W2r : FVec Ideal S10x64 .f32)
    (h0 : AllReal x0) (h1l : AllReal W1l) (h1b : AllReal b1) (h1r : AllReal W1r)
    (h2l : AllReal W2l) (h2b : AllReal b2) (h2r : AllReal W2r) :
    outK D x0 ei W1l b1 W1r W2l b2 W2r = outR (F := Ideal) D x0 ei W1l b1 W1r W2l b2 W2r := by
  have hx1 := x1K_eq_x1R D hD x0 ei W1l b1 W1r
  have hreal := allReal_x1R D hD x0 ei W1l b1 W1r h0 h1l h1b h1r
  unfold outK outR outOfX1R
  rw [hx1, meanK_eq_meanR, layer2K_eq_layer2R _ _ _ _ _ (allReal_meanR D _ hreal _ _) hreal h2l h2r h2b, ← dense2R_eq D hD]

end Cert.Sage

end
-- ==== Proof.lean ====
/-
  The certificate of a two-layer neighbourhood-mean network: a kernel program of two pipelined regions (each a dense layer
  over row blocks of 5000 nodes) among host gathers and segment sums, against a host-only reference.

  The frames of the two kernel programs are the generated ones; the reference's frame is its run with the result dropped.
  The idealization rewrote nothing, so it preserves the kernel trivially. For the value claim, the kernel program's run
  leaves in its result buffer the second region's output array, which is the second layer of what the second host stretch
  leaves, and so on back to the arguments: the network's output in the kernel's arrangement (the mean as a product with a
  reciprocal count, each layer's sums as `(mean · Wlᵀ + x · Wrᵀ) + b`, the log-softmax with the row maximum added back to
  the logarithm). The reference's run leaves the same network in the host spelling (the mean as a quotient, the sums as
  `(mean · Wlᵀ + b) + x · Wrᵀ`, the log-softmax with the maximum subtracted first). The clipped count is a real number at
  least one, so the two means agree; addition of extended reals is commutative and associative, so the first layer agrees
  everywhere; and under the precondition every float argument is real, hence so is the first layer's output and every unit
  row of the second layer, where the two arrangements of the log-softmax agree.
-/
import proofs.«108602_j31894427140226_1_alg».proof.Defs
import proofs.«108602_j31894427140226_1_alg».proof.Proof.Gen.Kernel
import proofs.«108602_j31894427140226_1_alg».proof.Proof.Gen.Kernel.Frame
import proofs.«108602_j31894427140226_1_alg».proof.Proof.Gen.KernelIdeal
import proofs.«108602_j31894427140226_1_alg».proof.Proof.Gen.KernelIdeal.Frame
import proofs.«108602_j31894427140226_1_alg».proof.Proof.Gen.ReferenceIdeal
import proofs.«108602_j31894427140226_1_alg».proof.Proof.Gen.Pre_finite_inputs
import proofs.«108602_j31894427140226_1_alg».proof.Proof.KRun
import proofs.«108602_j31894427140226_1_alg».proof.Proof.KOut
import proofs.«108602_j31894427140226_1_alg».proof.Proof.RefRun
import proofs.«108602_j31894427140226_1_alg».proof.Proof.Bridge
import proofs.«108602_j31894427140226_1_alg».proof.Proof.Finite
import Idealize.ShloMosaic.Adequacy
import Idealize.ShloMosaic.Init

noncomputable section

namespace Cert.Proof

open Idealize.ShloMosaic Idealize.SL.Sem

/-- The dimension numbers both programs print, read off the reference's records. -/
abbrev dims : Cert.Sage.Dims := Cert.ReferenceIdeal.RefRun.dims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the network's output in the host spelling of the (agreeing) arguments: the reference's by its run,
    the kernel program's by its run, the bridge between the two arrangements, and the arguments' agreement. -/
theorem algebraic : Cert.algebraic_KernelIdeal_ReferenceIdeal := by
  intro m ρ m' ρ' hpre hagree
  refine ⟨fun c => Cert.Sage.outR (F := Ideal) dims
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)), ?_,
    Cert.ReferenceIdeal.RefRun.run (F := Ideal) m' ρ'⟩
  refine (θ_run Cert.KernelIdeal.defs _ _).mono (fun r h c => ⟨(h c).1.trans ?_, (h c).2⟩)
    (Cert.KernelIdeal.Gen.run_named (F := Ideal) m ρ)
  obtain ⟨e0, e1, e2, e3, e4, e5, e6, e7⟩ := hagree c
  obtain ⟨r0, r2, r3, r4, r5, r6, r7⟩ := Cert.Sage.allReal_of_pre _ _ _ _ _ _ _ _ (hpre c)
  rw [Cert.KernelIdeal.KOut.result m ρ dims rfl rfl rfl c]
  refine (Cert.Sage.outK_eq_outR dims Cert.ReferenceIdeal.RefRun.dims_ok _ _ _ _ _ _ _ _ r0 r2 r3 r4 r5 r6 r7).trans ?_
  show _ = Cert.Sage.outR (F := Ideal) dims _ _ _ _ _ _ _ _
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
